-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x128 : Shape := ⟨4, ![8, 128, 256, 128]⟩
abbrev S32x128 : Shape := ⟨2, ![32, 128]⟩
abbrev S32 : Shape := ⟨1, ![32]⟩
abbrev S128x128 : Shape := ⟨2, ![128, 128]⟩
abbrev S128 : Shape := ⟨1, ![128]⟩
abbrev S_ : Shape := ⟨0, ![]⟩

class Facts : Prop where
  bcast_S_S8x128x256x128 : S_.BroadcastsInDim S8x128x256x128 (![] : Fin 0 → Fin S8x128x256x128.rank)
  reducesTo_S8x128x256x128_S_d0_1_2_3 : S8x128x256x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S32 .f32) (main_arg5 : FVec F S128x128 .f32) (main_arg6 : FVec F S128 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x128x256x128 .f32) (main_arg1 : FVec F S32x128 .f32) (main_arg2 : FVec F S32 .f32) (main_arg3 : FVec F S32x128 .f32) (main_arg4 : FVec F S32 .f32) (main_arg5 : FVec F S128x128 .f32) (main_arg6 : FVec F S128 .f32) : IVec S_ 1 :=
  let main_v0 : FVec F S8x128x256x128 .f32 := Host.absf main_arg0
  let main_cst : FVec F S_ .f32 := constant S_ .f32 0x7F800000#32
  let main_v1 : FVec F S8x128x256x128 .f32 := broadcastInDim S8x128x256x128 ![] bcast_S_S8x128x256x128 main_cst
  let main_v2 : IVec S8x128x256x128 1 := cmpf .olt main_v0 main_v1
  let main_c : IVec S_ 1 := constantI S_ 1 1#1
  let main_v3 : IVec S_ 1 := (fun x v => Host.reduce IntOp.andi x v reducesTo_S8x128x256x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_v13 main_v16
-- ==== Kernel.lean ====
abbrev S8x128x256x128 : Shape := ⟨4, ![8, 128, 256, 128]⟩
abbrev S32x128 : Shape := ⟨2, ![32, 128]⟩
abbrev S32 : Shape := ⟨1, ![32]⟩
abbrev S128x128 : Shape := ⟨2, ![128, 128]⟩
abbrev S128 : Shape := ⟨1, ![128]⟩
abbrev S128x32 : Shape := ⟨2, ![128, 32]⟩
abbrev S1x128x32x128 : Shape := ⟨4, ![1, 128, 32, 128]⟩
abbrev S1x64x32x128 : Shape := ⟨4, ![1, 64, 32, 128]⟩
abbrev S64x32x128 : Shape := ⟨3, ![64, 32, 128]⟩
abbrev S32x64x128 : Shape := ⟨3, ![32, 64, 128]⟩
abbrev S2048x128 : Shape := ⟨2, ![2048, 128]⟩
abbrev S2048x32 : Shape := ⟨2, ![2048, 32]⟩
abbrev S1x32 : Shape := ⟨2, ![1, 32]⟩
abbrev S32x64x32 : Shape := ⟨3, ![32, 64, 32]⟩
abbrev S1x128 : Shape := ⟨2, ![1, 128]⟩
abbrev S32x64x64 : Shape := ⟨3, ![32, 64, 64]⟩
abbrev S32x64 : Shape := ⟨2, ![32, 64]⟩
abbrev S32x1x64 : Shape := ⟨3, ![32, 1, 64]⟩
abbrev S32x128x64 : Shape := ⟨3, ![32, 128, 64]⟩

abbrev nBuf : Space → Nat
  | .hbm => 11
  | .vmem => 10
  | .smem => 0
  | _ => 0

abbrev bufTy : (tb : Table) → Fin (tcTables nBuf tb) → BufTy
  | .hbm, ⟨0, _⟩ => ⟨S8x128x256x128, .f32⟩
  | .hbm, ⟨1, _⟩ => ⟨S32x128, .f32⟩
  | .hbm, ⟨2, _⟩ => ⟨S32, .f32⟩
  | .hbm, ⟨3, _⟩ => ⟨S32x128, .f32⟩
  | .hbm, ⟨4, _⟩ => ⟨S32, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S128x32, .f32⟩
  | .hbm, ⟨9, _⟩ => ⟨S128x128, .f32⟩
  | .hbm, ⟨10, _⟩ => ⟨S8x128x256x128, .f32⟩
  | .local _ .vmem, ⟨0, _⟩ => ⟨S1x128x32x128, .f32⟩
  | .local _ .vmem, ⟨1, _⟩ => ⟨S1x128x32x128, .f32⟩
  | .local _ .vmem, ⟨2, _⟩ => ⟨S128x32, .f32⟩
  | .local _ .vmem, ⟨3, _⟩ => ⟨S32, .f32⟩
  | .local _ .vmem, ⟨4, _⟩ => ⟨S128x32, .f32⟩
  | .local _ .vmem, ⟨5, _⟩ => ⟨S32, .f32⟩
  | .local _ .vmem, ⟨6, _⟩ => ⟨S128x128, .f32⟩
  | .local _ .vmem, ⟨7, _⟩ => ⟨S128, .f32⟩
  | .local _ .vmem, ⟨8, _⟩ => ⟨S1x128x32x128, .f32⟩
  | .local _ .vmem, ⟨9, _⟩ => ⟨S1x128x32x128, .f32⟩
  | _, _ => ⟨S8x128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S32x128_S128x32_1_0 : S32x128.Transposes [1, 0] S128x32
  transposes_S128x128_S128x128_1_0 : S128x128.Transposes [1, 0] S128x128
  inb_S1x128x32x128_S1x64x32x128_0_0_0_0 : ∀ a, (![0, 0, 0, 0] : Fin 4 → Nat) a + S1x64x32x128.size a ≤ S1x128x32x128.size a
  h_S1x64x32x128 : 0 < S1x64x32x128.numel
  shapeCasts_S1x64x32x128_S64x32x128 : S1x64x32x128.ShapeCasts S64x32x128
  inb_S1x128x32x128_S1x64x32x128_0_64_0_0 : ∀ a, (![0, 64, 0, 0] : Fin 4 → Nat) a + S1x64x32x128.size a ≤ S1x128x32x128.size a
  transposes_S64x32x128_p1_0_2_S32x64x128 : S64x32x128.Transposes [1, 0, 2] S32x64x128
  shapeCasts_S32x64x128_S2048x128 : S32x64x128.ShapeCasts S2048x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32_S32_0 : ∀ a, (![0] : Fin 1 → Nat) a + S32.size a ≤ S32.size a
  h_S32 : 0 < S32.numel
  inb_S128_S128_0 : ∀ a, (![0] : Fin 1 → Nat) a + S128.size a ≤ S128.size a
  h_S128 : 0 < S128.numel
  shapeCasts_S32_S1x32 : S32.ShapeCasts S1x32
  broadcasts_S1x32_S2048x32 : S1x32.Broadcasts S2048x32
  shapeCasts_S2048x32_S32x64x32 : S2048x32.ShapeCasts S32x64x32
  shapeCasts_S128_S1x128 : S128.ShapeCasts S1x128
  broadcasts_S1x128_S2048x128 : S1x128.Broadcasts S2048x128
  shapeCasts_S2048x128_S32x64x128 : S2048x128.ShapeCasts S32x64x128
  reduces_S32x64x64_S32x64 : S32x64x64.Reduces [1] S32x64
  shapeCasts_S32x64_S32x1x64 : S32x64.ShapeCasts S32x1x64
  broadcasts_S32x1x64_S32x64x64 : S32x1x64.Broadcasts S32x64x64
  transposes_S32x64x128_p0_2_1_S32x128x64 : S32x64x128.Transposes [0, 2, 1] S32x128x64
  transposes_S32x128x64_p2_0_1_S64x32x128 : S32x128x64.Transposes [2, 0, 1] S64x32x128
  shapeCasts_S64x32x128_S1x64x32x128 : S64x32x128.ShapeCasts S1x64x32x128
  dot_S2048x128_S128x32_S2048x32_1_0_0_1_n_n_wf : DotDims.WF S2048x128 S128x32 S2048x32 [1] [0] [0] [1] [] []
  dot_S2048x128_S128x128_S2048x128_1_0_0_1_n_n_wf : DotDims.WF S2048x128 S128x128 S2048x128 [1] [0] [0] [1] [] []
  dot_S32x64x32_S32x64x32_S32x64x64_2_2_1_1_0_0_wf : DotDims.WF S32x64x32 S32x64x32 S32x64x64 [2] [2] [1] [1] [0] [0]
  dot_S32x128x64_S32x64x64_S32x128x64_2_1_1_2_0_0_wf : DotDims.WF S32x128x64 S32x64x64 S32x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x128.size a ≤ S8x128x256x128.size a
  hwx0_0 : ∀ i : grid0.Coords, EltTy.bits .f32 = 32 ∨ (Rect.block (s := S8x128x256x128) S1x128x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x32x128.size a ≤ S8x128x256x128.size a
  hwx0_7 : ∀ i : grid0.Coords, EltTy.bits .f32 = 32 ∨ (Rect.block (s := S8x128x256x128) S1x128x32x128.size (cc0_transform_7 i) (hinb0_7 i)).WholeWords (EltTy.packing .f32)

variable [Facts₀]

def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x128x64_S32x64x64_S32x128x64_2_1_1_2_0_0 : DotDims S32x128x64 S32x64x64 S32x128x64 where
  lhsContracting := [2]
  rhsContracting := [1]
  lhsNonContracting := [1]
  rhsNonContracting := [2]
  lhsBatch := [0]
  rhsBatch := [0]
  wf := dot_S32x128x64_S32x64x64_S32x128x64_2_1_1_2_0_0_wf

abbrev win0_0 : Pipeline.Window sig grid0 :=
  Pipeline.Window.ofSpec (Memref.whole main_arg0) S1x128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128x32x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x256x128 : Shape := ⟨4, ![8, 128, 256, 128]⟩
abbrev S32x128 : Shape := ⟨2, ![32, 128]⟩
abbrev S32 : Shape := ⟨1, ![32]⟩
abbrev S128x128 : Shape := ⟨2, ![128, 128]⟩
abbrev S128 : Shape := ⟨1, ![128]⟩
abbrev S8x64x256x128 : Shape := ⟨4, ![8, 64, 256, 128]⟩
abbrev S32x8x64x256 : Shape := ⟨4, ![32, 8, 64, 256]⟩
abbrev S8x256x32x64 : Shape := ⟨4, ![8, 256, 32, 64]⟩
abbrev S1x1x32x1 : Shape := ⟨4, ![1, 1, 32, 1]⟩
abbrev S128x8x64x256 : Shape := ⟨4, ![128, 8, 64, 256]⟩
abbrev S8x256x128x64 : Shape := ⟨4, ![8, 256, 128, 64]⟩
abbrev S1x1x128x1 : Shape := ⟨4, ![1, 1, 128, 1]⟩
abbrev S8x256x64x64 : Shape := ⟨4, ![8, 256, 64, 64]⟩
abbrev S_ : Shape := ⟨0, ![]⟩
abbrev S8x256x64 : Shape := ⟨3, ![8, 256, 64]⟩
abbrev S8x256x1x64 : Shape := ⟨4, ![8, 256, 1, 64]⟩

abbrev nBuf : Space → Nat
  | .hbm => 82
  | .vmem => 0
  | .smem => 0
  | _ => 0

abbrev bufTy : (tb : Table) → Fin (tcTables nBuf tb) → BufTy
  | .hbm, ⟨0, _⟩ => ⟨S8x128x256x128, .f32⟩
  | .hbm, ⟨1, _⟩ => ⟨S32x128, .f32⟩
  | .hbm, ⟨2, _⟩ => ⟨S32, .f32⟩
  | .hbm, ⟨3, _⟩ => ⟨S32x128, .f32⟩
  | .hbm, ⟨4, _⟩ => ⟨S32, .f32⟩
  | .hbm, ⟨5, _⟩ => ⟨S128x128, .f32⟩
  | .hbm, ⟨6, _⟩ => ⟨S128, .f32⟩
  | .hbm, ⟨7, _⟩ => ⟨S8x64x256x128, .f32⟩
  | .hbm, ⟨8, _⟩ => ⟨S8x64x256x128, .f32⟩
  | .hbm, ⟨9, _⟩ => ⟨S32x8x64x256, .f32⟩
  | .hbm, ⟨10, _⟩ => ⟨S8x256x32x64, .f32⟩
  | .hbm, ⟨11, _⟩ => ⟨S1x1x32x1, .f32⟩
  | .hbm, ⟨12, _⟩ => ⟨S8x256x32x64, .f32⟩
  | .hbm, ⟨13, _⟩ => ⟨S8x256x32x64, .f32⟩
  | .hbm, ⟨14, _⟩ => ⟨S32x8x64x256, .f32⟩
  | .hbm, ⟨15, _⟩ => ⟨S8x256x32x64, .f32⟩
  | .hbm, ⟨16, _⟩ => ⟨S1x1x32x1, .f32⟩
  | .hbm, ⟨17, _⟩ => ⟨S8x256x32x64, .f32⟩
  | .hbm, ⟨18, _⟩ => ⟨S8x256x32x64, .f32⟩
  | .hbm, ⟨19, _⟩ => ⟨S32x8x64x256, .f32⟩
  | .hbm, ⟨20, _⟩ => ⟨S8x256x32x64, .f32⟩
  | .hbm, ⟨21, _⟩ => ⟨S1x1x32x1, .f32⟩
  | .hbm, ⟨22, _⟩ => ⟨S8x256x32x64, .f32⟩
  | .hbm, ⟨23, _⟩ => ⟨S8x256x32x64, .f32⟩
  | .hbm, ⟨24, _⟩ => ⟨S32x8x64x256, .f32⟩
  | .hbm, ⟨25, _⟩ => ⟨S8x256x32x64, .f32⟩
  | .hbm, ⟨26, _⟩ => ⟨S1x1x32x1, .f32⟩
  | .hbm, ⟨27, _⟩ => ⟨S8x256x32x64, .f32⟩
  | .hbm, ⟨28, _⟩ => ⟨S8x256x32x64, .f32⟩
  | .hbm, ⟨29, _⟩ => ⟨S128x8x64x256, .f32⟩
  | .hbm, ⟨30, _⟩ => ⟨S8x256x128x64, .f32⟩
  | .hbm, ⟨31, _⟩ => ⟨S1x1x128x1, .f32⟩
  | .hbm, ⟨32, _⟩ => ⟨S8x256x128x64, .f32⟩
  | .hbm, ⟨33, _⟩ => ⟨S8x256x128x64, .f32⟩
  | .hbm, ⟨34, _⟩ => ⟨S128x8x64x256, .f32⟩
  | .hbm, ⟨35, _⟩ => ⟨S8x256x128x64, .f32⟩
  | .hbm, ⟨36, _⟩ => ⟨S1x1x128x1, .f32⟩
  | .hbm, ⟨37, _⟩ => ⟨S8x256x128x64, .f32⟩
  | .hbm, ⟨38, _⟩ => ⟨S8x256x128x64, .f32⟩
  | .hbm, ⟨39, _⟩ => ⟨S8x256x64x64, .f32⟩
  | .hbm, ⟨40, _⟩ => ⟨S8x256x64x64, .f32⟩
  | .hbm, ⟨41, _⟩ => ⟨S8x256x64x64, .f32⟩
  | .hbm, ⟨42, _⟩ => ⟨S8x256x64x64, .f32⟩
  | .hbm, ⟨43, _⟩ => ⟨S8x256x64x64, .f32⟩
  | .hbm, ⟨44, _⟩ => ⟨S8x256x64x64, .f32⟩
  | .hbm, ⟨45, _⟩ => ⟨S_, .f32⟩
  | .hbm, ⟨46, _⟩ => ⟨S8x256x64, .f32⟩
  | .hbm, ⟨47, _⟩ => ⟨S_, .f32⟩
  | .hbm, ⟨48, _⟩ => ⟨S8x256x64, .f32⟩
  | .hbm, ⟨49, _⟩ => ⟨S8x256x64, .f32⟩
  | .hbm, ⟨50, _⟩ => ⟨S8x256x1x64, .f32⟩
  | .hbm, ⟨51, _⟩ => ⟨S8x256x64x64, .f32⟩
  | .hbm, ⟨52, _⟩ => ⟨S8x256x64x64, .f32⟩
  | .hbm, ⟨53, _⟩ => ⟨S8x256x64x64, .f32⟩
  | .hbm, ⟨54, _⟩ => ⟨S_, .f32⟩
  | .hbm, ⟨55, _⟩ => ⟨S8x256x64, .f32⟩
  | .hbm, ⟨56, _⟩ => ⟨S8x256x1x64, .f32⟩
  | .hbm, ⟨57, _⟩ => ⟨S8x256x64x64, .f32⟩
  | .hbm, ⟨58, _⟩ => ⟨S8x256x64x64, .f32⟩
  | .hbm, ⟨59, _⟩ => ⟨S_, .f32⟩
  | .hbm, ⟨60, _⟩ => ⟨S8x256x64, .f32⟩
  | .hbm, ⟨61, _⟩ => ⟨S_, .f32⟩
  | .hbm, ⟨62, _⟩ => ⟨S8x256x64, .f32⟩
  | .hbm, ⟨63, _⟩ => ⟨S8x256x64, .f32⟩
  | .hbm, ⟨64, _⟩ => ⟨S8x256x1x64, .f32⟩
  | .hbm, ⟨65, _⟩ => ⟨S8x256x64x64, .f32⟩
  | .hbm, ⟨66, _⟩ => ⟨S8x256x64x64, .f32⟩
  | .hbm, ⟨67, _⟩ => ⟨S8x256x64x64, .f32⟩
  | .hbm, ⟨68, _⟩ => ⟨S_, .f32⟩
  | .hbm, ⟨69, _⟩ => ⟨S8x256x64, .f32⟩
  | .hbm, ⟨70, _⟩ => ⟨S8x256x1x64, .f32⟩
  | .hbm, ⟨71, _⟩ => ⟨S8x256x64x64, .f32⟩
  | .hbm, ⟨72, _⟩ => ⟨S8x256x64x64, .f32⟩
  | .hbm, ⟨73, _⟩ => ⟨S8x256x128x64, .f32⟩
  | .hbm, ⟨74, _⟩ => ⟨S8x256x128x64, .f32⟩
  | .hbm, ⟨75, _⟩ => ⟨S8x256x128x64, .f32⟩
  | .hbm, ⟨76, _⟩ => ⟨S8x256x128x64, .f32⟩
  | .hbm, ⟨77, _⟩ => ⟨S8x256x128x64, .f32⟩
  | .hbm, ⟨78, _⟩ => ⟨S8x256x128x64, .f32⟩
  | .hbm, ⟨79, _⟩ => ⟨S8x64x256x128, .f32⟩
  | .hbm, ⟨80, _⟩ => ⟨S8x64x256x128, .f32⟩
  | .hbm, ⟨81, _⟩ => ⟨S8x128x256x128, .f32⟩
  | _, _ => ⟨S8x128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst : Ref sig .tc := ⟨.hbm, 45, rfl⟩
abbrev main_v38 : Ref sig .tc := ⟨.hbm, 46, rfl⟩
abbrev main_cst_0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]

class Facts₀ : Prop where
  slices_S8x128x256x128_S8x64x256x128_0_0_0_0 : S8x128x256x128.Slices ![0, 0, 0, 0] S8x64x256x128
  slices_S8x128x256x128_S8x64x256x128_0_64_0_0 : S8x128x256x128.Slices ![0, 64, 0, 0] S8x64x256x128
  transposes_S32x8x64x256_S8x256x32x64_1_3_0_2 : S32x8x64x256.Transposes [1, 3, 0, 2] S8x256x32x64
  bcast_S32_S1x1x32x1_2 : S32.BroadcastsInDim S1x1x32x1 (![2] : Fin 1 → Fin S1x1x32x1.rank)
  bcast_S1x1x32x1_S8x256x32x64_0_1_2_3 : S1x1x32x1.BroadcastsInDim S8x256x32x64 (![0, 1, 2, 3] : Fin 4 → Fin S8x256x32x64.rank)
  transposes_S128x8x64x256_S8x256x128x64_1_3_0_2 : S128x8x64x256.Transposes [1, 3, 0, 2] S8x256x128x64
  bcast_S128_S1x1x128x1_2 : S128.BroadcastsInDim S1x1x128x1 (![2] : Fin 1 → Fin S1x1x128x1.rank)
  bcast_S1x1x128x1_S8x256x128x64_0_1_2_3 : S1x1x128x1.BroadcastsInDim S8x256x128x64 (![0, 1, 2, 3] : Fin 4 → Fin S8x256x128x64.rank)
  reducesTo_S8x256x64x64_S8x256x64_d2 : S8x256x64x64.ReducesTo [2] S8x256x64
  h_S_ : 0 < S_.numel
  bcast_S_S8x256x64 : S_.BroadcastsInDim S8x256x64 (![] : Fin 0 → Fin S8x256x64.rank)
  bcast_S8x256x64_S8x256x1x64_0_1_3 : S8x256x64.BroadcastsInDim S8x256x1x64 (![0, 1, 3] : Fin 3 → Fin S8x256x1x64.rank)
  bcast_S8x256x1x64_S8x256x64x64_0_1_2_3 : S8x256x1x64.BroadcastsInDim S8x256x64x64 (![0, 1, 2, 3] : Fin 4 → Fin S8x256x64x64.rank)
  transposes_S8x256x128x64_S8x64x256x128_0_3_1_2 : S8x256x128x64.Transposes [0, 3, 1, 2] S8x64x256x128
  concatenates_S8x64x256x128_S8x64x256x128_S8x128x256x128_d1 : Shape.Concatenates [S8x64x256x128, S8x64x256x128] S8x128x256x128 1
  dot_S32x128_S8x64x256x128_S32x8x64x256_1_3_0_012_n_n_wf : DotDims.WF S32x128 S8x64x256x128 S32x8x64x256 [1] [3] [0] [0, 1, 2] [] []
  dot_S128x128_S8x64x256x128_S128x8x64x256_1_3_0_012_n_n_wf : DotDims.WF S128x128 S8x64x256x128 S128x8x64x256 [1] [3] [0] [0, 1, 2] [] []
  dot_S8x256x32x64_S8x256x32x64_S8x256x64x64_2_2_3_3_01_01_wf : DotDims.WF S8x256x32x64 S8x256x32x64 S8x256x64x64 [2] [2] [3] [3] [0, 1] [0, 1]
  dot_S8x256x128x64_S8x256x64x64_S8x256x128x64_3_2_2_3_01_01_wf : DotDims.WF S8x256x128x64 S8x256x64x64 S8x256x128x64 [3] [2] [2] [3] [0, 1] [0, 1]

variable [Facts₀]

def dot_S32x128_S8x64x256x128_S32x8x64x256_1_3_0_012_n_n : DotDims S32x128 S8x64x256x128 S32x8x64x256 where
  lhsContracting := [1]
  rhsContracting := [3]
  lhsNonContracting := [0]
  rhsNonContracting := [0, 1, 2]
  lhsBatch := []
  rhsBatch := []
  wf := dot_S32x128_S8x64x256x128_S32x8x64x256_1_3_0_012_n_n_wf
def dot_S128x128_S8x64x256x128_S128x8x64x256_1_3_0_012_n_n : DotDims S128x128 S8x64x256x128 S128x8x64x256 where
  lhsContracting := [1]
  rhsContracting := [3]
  lhsNonContracting := [0]
  rhsNonContracting := [0, 1, 2]
  lhsBatch := []
  rhsBatch := []
  wf := dot_S128x128_S8x64x256x128_S128x8x64x256_1_3_0_012_n_n_wf
def dot_S8x256x32x64_S8x256x32x64_S8x256x64x64_2_2_3_3_01_01 : DotDims S8x256x32x64 S8x256x32x64 S8x256x64x64 where
  lhsContracting := [2]
  rhsContracting := [2]
  lhsNonContracting := [3]
  rhsNonContracting := [3]
  lhsBatch := [0, 1]
  rhsBatch := [0, 1]
  wf := dot_S8x256x32x64_S8x256x32x64_S8x256x64x64_2_2_3_3_01_01_wf
def dot_S8x256x128x64_S8x256x64x64_S8x256x128x64_3_2_2_3_01_01 : DotDims S8x256x128x64 S8x256x64x64 S8x256x128x64 where
  lhsContracting := [3]
  rhsContracting := [2]
  lhsNonContracting := [2]
  rhsNonContracting := [3]
  lhsBatch := [0, 1]
  rhsBatch := [0, 1]
  wf := dot_S8x256x128x64_S8x256x64x64_S8x256x128x64_3_2_2_3_01_01_wf

class Facts : Prop extends Facts₀ where

variable [Facts]
-- ==== Proof.Spec.lean ====
/-
  The mathematics both programs compute, stated once over plain coordinates and the extended reals.

  For one batch entry `b` and one frequency `f` the input is a slice `xs ch t` (128 channels by 128 time steps);
  channels `0 … 63` are the real half and `64 … 127` the imaginary half of 64 complex channels. Three linear maps
  along the time axis, each with a bias, give keys `k ch d`, queries `q ch d` (32 features) and values `v ch t'`
  (128 features). The complex score of channels `c`, `e` is the plain (unconjugated) product summed over the
  features: real part `∑ k_re q_re − ∑ k_im q_im`, imaginary part `∑ k_re q_im + ∑ k_im q_re`. Each part is
  normalised by its own softmax over `c`, and the output at feature `t` and channel `e` is the complex product of
  the values with the two weight arrays, summed over `c`. The result array holds the real part on channels
  `0 … 63` and the imaginary part on channels `64 … 127`.

  Every sum is a finite sum over a `Fin`, every maximum a fold of `max` from the word both programs start from,
  and the exponential and the quotient are the extended reals' own (`Ideal.exp`, `Ideal.div`), so neither side has
  to evaluate a literal or to assume anything finite.
-/
import Idealize.ShloMosaic.PureOps.Ideal
import Idealize.ShloMosaic.Lib.ValueIdx

noncomputable section

namespace Cert.Attn

open Idealize.ShloMosaic Idealize.ShloMosaic.ValueIdx
open scoped BigOperators

/-- The word both programs start a maximum from (the f32 pattern of minus infinity), left unevaluated. -/
abbrev negInf : EReal := Ideal.ofBits .f32 0xFF800000#32

/-- Complex channel `c`'s real half is channel `c` of the slice. -/
def re (c : Fin 64) : Fin 128 := ⟨c.val, by omega⟩

/-- Complex channel `c`'s imaginary half is channel `64 + c` of the slice. -/
def im (c : Fin 64) : Fin 128 := ⟨64 + c.val, by omega⟩

/-- A linear map along the time axis with a bias: channel `ch` of the slice against row `d` of the weight. -/
def proj {D : ℕ} (xs : Fin 128 → Fin 128 → EReal) (W : Fin D → Fin 128 → EReal) (b : Fin D → EReal)
    (ch : Fin 128) (d : Fin D) : EReal :=
  (∑ t : Fin 128, xs ch t * W d t) + b d

/-- Real part of the score of complex channels `c` and `e`. -/
def scoreRe (k q : Fin 128 → Fin 32 → EReal) (c e : Fin 64) : EReal :=
  (∑ d : Fin 32, k (re c) d * q (re e) d) - ∑ d : Fin 32, k (im c) d * q (im e) d

/-- Imaginary part of the score of complex channels `c` and `e`. -/
def scoreIm (k q : Fin 128 → Fin 32 → EReal) (c e : Fin 64) : EReal :=
  (∑ d : Fin 32, k (re c) d * q (im e) d) + ∑ d : Fin 32, k (im c) d * q (re e) d

/-- The maximum of a column, as both programs take it: a fold of `max` from minus infinity, then once more
    against minus infinity. -/
def colMax (p : Fin 64 → EReal) : EReal :=
  max negInf ((Finset.univ : Finset (Fin 64)).fold max negInf p)

/-- Softmax of a column at `c`: the shifted exponential over the sum of the shifted exponentials. -/
def softmaxCol (p : Fin 64 → EReal) (c : Fin 64) : EReal :=
  Ideal.div (Ideal.exp (p c - colMax p)) (∑ c' : Fin 64, Ideal.exp (p c' - colMax p))

/-- Real part of the output at feature `t`, complex channel `e`. -/
def outRe (v : Fin 128 → Fin 128 → EReal) (wr wi : Fin 64 → Fin 64 → EReal) (t : Fin 128) (e : Fin 64) : EReal :=
  (∑ c : Fin 64, v (re c) t * wr c e) - ∑ c : Fin 64, v (im c) t * wi c e

/-- Imaginary part of the output at feature `t`, complex channel `e`. -/
def outIm (v : Fin 128 → Fin 128 → EReal) (wr wi : Fin 64 → Fin 64 → EReal) (t : Fin 128) (e : Fin 64) : EReal :=
  (∑ c : Fin 64, v (re c) t * wi c e) + ∑ c : Fin 64, v (im c) t * wr c e

section Slice

variable (xs : Fin 128 → Fin 128 → EReal)
  (Wk : Fin 32 → Fin 128 → EReal) (bk : Fin 32 → EReal)
  (Wq : Fin 32 → Fin 128 → EReal) (bq : Fin 32 → EReal)
  (Wv : Fin 128 → Fin 128 → EReal) (bv : Fin 128 → EReal)

/-- The real softmax weights of a slice. -/
def wRe (c e : Fin 64) : EReal :=
  softmaxCol (fun c' => scoreRe (proj xs Wk bk) (proj xs Wq bq) c' e) c

/-- The imaginary softmax weights of a slice. -/
def wIm (c e : Fin 64) : EReal :=
  softmaxCol (fun c' => scoreIm (proj xs Wk bk) (proj xs Wq bq) c' e) c

/-- The whole per-slice map: output channel `ch` (real half below 64, imaginary half from 64 on) at feature `t`. -/
def attn (ch : Fin 128) (t : Fin 128) : EReal :=
  if h : ch.val < 64 then
    outRe (proj xs Wv bv) (wRe xs Wk bk Wq bq) (wIm xs Wk bk Wq bq) t ⟨ch.val, h⟩
  else
    outIm (proj xs Wv bv) (wRe xs Wk bk Wq bq) (wIm xs Wk bk Wq bq) t ⟨ch.val - 64, by omega⟩

theorem attn_re (e : Fin 64) (t : Fin 128) :
    attn xs Wk bk Wq bq Wv bv (re e) t
      = outRe (proj xs Wv bv) (wRe xs Wk bk Wq bq) (wIm xs Wk bk Wq bq) t e := by
  unfold attn; rw [dif_pos (show (re e).val < 64 from e.isLt)]; rfl

theorem attn_im (e : Fin 64) (t : Fin 128) :
    attn xs Wk bk Wq bq Wv bv (im e) t
      = outIm (proj xs Wv bv) (wRe xs Wk bk Wq bq) (wIm xs Wk bk Wq bq) t e := by
  unfold attn
  rw [dif_neg (show ¬ (im e).val < 64 by show ¬ 64 + e.val < 64; omega)]
  congr 1; apply Fin.ext; show 64 + e.val - 64 = e.val; omega

end Slice

/-! ## The whole array -/

abbrev SX : Shape := ⟨4, ![8, 128, 256, 128]⟩
abbrev SW32 : Shape := ⟨2, ![32, 128]⟩
abbrev SB32 : Shape := ⟨1, ![32]⟩
abbrev SW128 : Shape := ⟨2, ![128, 128]⟩
abbrev SB128 : Shape := ⟨1, ![128]⟩

/-- The result at coordinates `(b, ch, f, t)`: the per-slice map of the slice of `x` at batch `b`, frequency `f`. -/
def Gc (x : SX.Idx → EReal) (Wk : SW32.Idx → EReal) (bk : SB32.Idx → EReal) (Wq : SW32.Idx → EReal)
    (bq : SB32.Idx → EReal) (Wv : SW128.Idx → EReal) (bv : SB128.Idx → EReal)
    (b : Fin 8) (ch : Fin 128) (f : Fin 256) (t : Fin 128) : EReal :=
  attn (fun ch' t' => x (ix4 b ch' f t')) (fun d t' => Wk (ix2 d t')) (fun d => bk (ix1 d))
    (fun d t' => Wq (ix2 d t')) (fun d => bq (ix1 d)) (fun d t' => Wv (ix2 d t')) (fun d => bv (ix1 d)) ch t

/-- The result array as ONE function of the seven argument arrays, index by index. -/
def G (x : SX.Idx → EReal) (Wk : SW32.Idx → EReal) (bk : SB32.Idx → EReal) (Wq : SW32.Idx → EReal)
    (bq : SB32.Idx → EReal) (Wv : SW128.Idx → EReal) (bv : SB128.Idx → EReal) (i : SX.Idx) : EReal :=
  Gc x Wk bk Wq bq Wv bv (i 0) (i 1) (i 2) (i 3)

theorem G_ix4 (x : SX.Idx → EReal) (Wk : SW32.Idx → EReal) (bk : SB32.Idx → EReal) (Wq : SW32.Idx → EReal)
    (bq : SB32.Idx → EReal) (Wv : SW128.Idx → EReal) (bv : SB128.Idx → EReal)
    (b : Fin 8) (ch : Fin 128) (f : Fin 256) (t : Fin 128) :
    G x Wk bk Wq bq Wv bv (ix4 b ch f t) = Gc x Wk bk Wq bq Wv bv b ch f t := rfl

end Cert.Attn

end
-- ==== Proof.LibMidAxis.lean ====
/-
  Reading a few layout operations and one-axis reductions at an index written by coordinates, at any sizes.

  * A rank-3 array transposed by the permutations `[1, 0, 2]` and `[2, 0, 1]`.
  * A reduction over the MIDDLE axis of an `[a, b, c]` array, read at `(i, k)`: a sum as the finite sum over `j` of
    the array at `(i, j, k)`, a maximum as the fold of `max` over the same entries from the accumulator's value.
  * The host's reduction with a maximum body over axis 2 of an `[n0, n1, n2, n3]` array, read at `(p, q, r)`: the fold
    of `max` over `j` of the array at `(p, q, j, r)`, from the initial value.
  * Two arrays `[n0, a, n2, n3]` and `[n0, b, n2, n3]` joined along axis 1, read below and from the joint on.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibMidAxis

open Idealize.ShloMosaic Idealize.ShloMosaic.ValueIdx
open scoped BigOperators

variable {α : Type}

/-! ## Two rank-3 transposes -/

/-- The first two axes swapped: the result at `(j, i, k)` is the operand at `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- The last axis brought to the front: the result at `(k, i, j)` is the operand at `(i, j, k)`. -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun d => match d with | ⟨0, _⟩ => rfl | ⟨1, _⟩ => rfl | ⟨2, _⟩ => rfl

/-! ## A reduction over the middle axis of a rank-3 array -/

/-- The reduced index `(i, k)` with the middle coordinate `j` put back is `(i, j, k)`. -/
theorem lift_mid {a b c : ℕ} (h : (⟨3, ![a, b, c]⟩ : Shape).Reduces [1] (⟨2, ![a, c]⟩ : Shape)) (i : Fin a) (k : Fin c)
    (j : Fin ((⟨3, ![a, b, c]⟩ : Shape).size 1)) :
    h.lift (ix2 i k) j = ix3 i (⟨j.val, j.isLt⟩ : Fin b) k := by
  funext d; apply Fin.ext
  fin_cases d <;> rfl

/-- A float sum over the middle axis at `(i, k)`: the sum over `j` of the array at `(i, j, k)`. -/
theorem multiReduction_add_mid {φ : FTy} {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) := by
  rw [Ideal.multiReduction_add_single]
  exact Finset.sum_congr rfl fun j _ => congrArg src (lift_mid h i k j)

/-- A float maximum over the middle axis at `(i, k)`: the fold of `max`, from the accumulator's value, over `j` of the
    array at `(i, j, k)`. -/
theorem multiReduction_maximumf_mid {φ : FTy} {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (k : Fin c) :
    multiReduction .maximumf [1] ⟨2, ![a, c]⟩ src acc h hφ hacc (ix2 i k)
      = (Finset.univ : Finset (Fin b)).fold max (Ideal.ofBits φ acc) (fun j => src (ix3 i j k)) := by
  rw [Ideal.multiReduction_maximumf_single]
  have hf : (src ∘ h.lift (ix2 i k)) = fun j : Fin b => src (ix3 i j k) :=
    funext fun j => congrArg src (lift_mid h i k j)
  exact congrArg (fun f => Finset.fold max (Ideal.ofBits φ acc) f (Finset.univ : Finset (Fin b))) hf

/-! ## The host's maximum over axis 2 of a rank-4 array -/

/-- The reduced index `(p, q, r)` with the coordinate `j` of axis 2 put back is `(p, q, j, r)`. -/
theorem lift_axis2 {n0 n1 n2 n3 : ℕ}
    (h : (⟨4, ![n0, n1, n2, n3]⟩ : Shape).Reduces [2] (⟨3, ![n0, n1, n3]⟩ : Shape)) (p : Fin n0) (q : Fin n1) (r : Fin n3)
    (j : Fin ((⟨4, ![n0, n1, n2, n3]⟩ : Shape).size 2)) :
    h.lift (ix3 p q r) j = ix4 p q (⟨j.val, j.isLt⟩ : Fin n2) r := by
  funext d; apply Fin.ext
  fin_cases d <;> rfl

/-- The host's reduction with a maximum body over axis 2, at `(p, q, r)`: the fold of `max`, from the initial value,
    over `j` of the array at `(p, q, j, r)`. -/
theorem hostReduce_maximumf_axis2 {φ : FTy} {n0 n1 n2 n3 : ℕ} {u : Shape} (x : FVec Ideal ⟨4, ![n0, n1, n2, n3]⟩ φ)
    (init : FVec Ideal u φ)
    (h' : (⟨4, ![n0, n1, n2, n3]⟩ : Shape).ReducesTo [2] (⟨3, ![n0, n1, n3]⟩ : Shape))
    (h : (⟨4, ![n0, n1, n2, n3]⟩ : Shape).Reduces [2] (⟨3, ![n0, n1, n3]⟩ : Shape)) (hu : 0 < u.numel)
    (p : Fin n0) (q : Fin n1) (r : Fin n3) :
    Host.reduce FloatOps.maximumf x init h' hu (ix3 p q r)
      = (Finset.univ : Finset (Fin n2)).fold max (init (Shape.Idx.first hu)) (fun j => x (ix4 p q j r)) := by
  rw [Host.reduce_eq_fold_single FloatOps.maximumf x init h' h hu]
  have hf : (x ∘ h.lift (ix3 p q r)) = fun j : Fin n2 => x (ix4 p q j r) :=
    funext fun j => congrArg x (lift_axis2 h p q r j)
  exact congrArg (fun f => Finset.fold max (init (Shape.Idx.first hu)) f (Finset.univ : Finset (Fin n2))) hf

/-! ## Two rank-4 arrays joined along axis 1 -/

/-- Below the joint the joined array reads the first piece at the same coordinates. -/
theorem concatenate_axis1_left {n0 a b n n2 n3 : ℕ} (x₁ : (⟨4, ![n0, a, n2, n3]⟩ : Shape).Idx → α)
    (x₂ : (⟨4, ![n0, b, n2, n3]⟩ : Shape).Idx → α)
    (h : Shape.Concatenates [⟨4, ![n0, a, n2, n3]⟩, ⟨4, ![n0, b, n2, n3]⟩] ⟨4, ![n0, n, n2, n3]⟩ 1)
    (p : Fin n0) (e : Fin a) (e' : Fin n) (he : e'.val = e.val) (q : Fin n2) (r : Fin n3) :
    concatenate ⟨4, ![n0, n, n2, n3]⟩ 1 [⟨⟨4, ![n0, a, n2, n3]⟩, x₁⟩, ⟨⟨4, ![n0, b, n2, n3]⟩, x₂⟩] h (ix4 p e' q r)
      = x₁ (ix4 p e q r) :=
  concatenate_pair_apply_left 1 x₁ x₂ h (ix4 p e' q r) rfl (ix4 p e q r) fun d =>
    match d with | ⟨0, _⟩ => rfl | ⟨1, _⟩ => he.symm | ⟨2, _⟩ => rfl | ⟨3, _⟩ => rfl

/-- From the joint on it reads the second piece, its axis-1 coordinate the first piece's extent less. -/
theorem concatenate_axis1_right {n0 a b n n2 n3 : ℕ} (x₁ : (⟨4, ![n0, a, n2, n3]⟩ : Shape).Idx → α)
    (x₂ : (⟨4, ![n0, b, n2, n3]⟩ : Shape).Idx → α)
    (h : Shape.Concatenates [⟨4, ![n0, a, n2, n3]⟩, ⟨4, ![n0, b, n2, n3]⟩] ⟨4, ![n0, n, n2, n3]⟩ 1)
    (p : Fin n0) (e : Fin b) (e' : Fin n) (he : e'.val = a + e.val) (q : Fin n2) (r : Fin n3) :
    concatenate ⟨4, ![n0, n, n2, n3]⟩ 1 [⟨⟨4, ![n0, a, n2, n3]⟩, x₁⟩, ⟨⟨4, ![n0, b, n2, n3]⟩, x₂⟩] h (ix4 p e' q r)
      = x₂ (ix4 p e q r) :=
  concatenate_pair_apply_right 1 x₁ x₂ h (ix4 p e' q r) rfl rfl (ix4 p e q r)
    (fun d hd => match d, hd with
      | ⟨0, _⟩, _ => rfl
      | ⟨1, _⟩, hd => absurd rfl hd
      | ⟨2, _⟩, _ => rfl
      | ⟨3, _⟩, _ => rfl)
    (by show e.val + a = e'.val; omega)

end Cert.LibMidAxis

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibLeadingAxes.lean ====
/-
  Shape casts that merge or split the two LEADING axes, read at an index.

  A row-major array of extents `a × b × c` and one of extents `n × c` with `n = a · b` hold the same entries in
  the same order: entry `(i, j, k)` of the first is entry `(i · b + j, k)` of the second. The same with one more
  trailing axis: `(i, j, k, l)` of an `a × b × c × d` array is `(i · b + j, k, l)` of the `n × c × d` one. Each
  statement takes the merged row `r` with the equation `r = i · b + j`, so it serves in both directions of use
  (from a pair to its row, or from a row to its quotient and remainder); any sizes and element type.
-/
import Idealize.ShloMosaic.Lib.ValueIdx
import Idealize.ShloMosaic.Lib.Pipeline.Value

noncomputable section

namespace Cert.LibLeadingAxes

open Idealize.ShloMosaic Idealize.ShloMosaic.ValueIdx

variable {α : Type} {a b c d n : Nat}

/-- `[a, b, c]` cast to `[n, c]`: entry `(r, k)` with `r = i · b + j` is the operand's `(i, j, k)`. -/
theorem merge3_apply (x : (⟨3, ![a, b, c]⟩ : Shape).Idx → α) (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h (ix2 r k) (ix3 i j k) (by
    rw [Shape.rowMajor_val_three, Shape.rowMajor_val_two]
    show (i.val * b + j.val) * c + k.val = r.val * c + k.val
    rw [hr])

/-- `[n, c]` cast to `[a, b, c]`: entry `(i, j, k)` is the operand's `(r, k)` with `r = i · b + j`. -/
theorem split3_apply (y : (⟨2, ![n, c]⟩ : Shape).Idx → α) (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ y h (ix3 i j k) = y (ix2 r k) :=
  shapeCast_apply y h (ix3 i j k) (ix2 r k) (by
    rw [Shape.rowMajor_val_three, Shape.rowMajor_val_two]
    show r.val * c + k.val = (i.val * b + j.val) * c + k.val
    rw [hr])

/-- `[a, b, c, d]` cast to `[n, c, d]`: entry `(r, k, l)` with `r = i · b + j` is the operand's `(i, j, k, l)`. -/
theorem merge4_apply (x : (⟨4, ![a, b, c, d]⟩ : Shape).Idx → α)
    (h : (⟨4, ![a, b, c, d]⟩ : Shape).ShapeCasts ⟨3, ![n, c, d]⟩)
    (i : Fin a) (j : Fin b) (k : Fin c) (l : Fin d) (r : Fin n) (hr : r.val = i.val * b + j.val) :
    shapeCast ⟨3, ![n, c, d]⟩ x h (ix3 r k l) = x (ix4 i j k l) :=
  shapeCast_apply x h (ix3 r k l) (ix4 i j k l) (by
    rw [Shape.rowMajor_val_four, Shape.rowMajor_val_three]
    show ((i.val * b + j.val) * c + k.val) * d + l.val = (r.val * c + k.val) * d + l.val
    rw [hr])

/-- `[n, c, d]` cast to `[a, b, c, d]`: entry `(i, j, k, l)` is the operand's `(r, k, l)` with `r = i · b + j`. -/
theorem split4_apply (y : (⟨3, ![n, c, d]⟩ : Shape).Idx → α)
    (h : (⟨3, ![n, c, d]⟩ : Shape).ShapeCasts ⟨4, ![a, b, c, d]⟩)
    (i : Fin a) (j : Fin b) (k : Fin c) (l : Fin d) (r : Fin n) (hr : r.val = i.val * b + j.val) :
    shapeCast ⟨4, ![a, b, c, d]⟩ y h (ix4 i j k l) = y (ix3 r k l) :=
  shapeCast_apply y h (ix4 i j k l) (ix3 r k l) (by
    rw [Shape.rowMajor_val_four, Shape.rowMajor_val_three]
    show (r.val * c + k.val) * d + l.val = ((i.val * b + j.val) * c + k.val) * d + l.val
    rw [hr])

end Cert.LibLeadingAxes

end
-- ==== Proof.KProj.lean ====
/-
  The kernel's projection payloads read at an index, at the ideal values.

  One block's real and imaginary halves are indexed (0, c, f, t): c < 64 channels, f < 32 frequencies, t < 128 time
  steps. A half is re-laid as a 2048 x 128 matrix whose row f * 64 + c is the half's (c, f, .): the unit axis is
  dropped, the first two axes are swapped and then merged; the narrowing of the element format is the identity on
  extended reals. A projection is that matrix times a 128 x D weight (accumulated from zero) plus a bias row spread
  over the 2048 rows, split back to 32 x 64 x D: entry (f, c, d) is  sum over t of x(0, c, f, t) * w(t, d), plus b(d).
-/
import proofs.«102360_j62723702391454_1_alg».proof.Proof.Gen.KernelIdeal.Skeleton
import proofs.«102360_j62723702391454_1_alg».proof.Proof.LibMidAxis
import proofs.«102360_j62723702391454_1_alg».proof.Proof.LibDotFormats
import proofs.«102360_j62723702391454_1_alg».proof.Proof.LibLeadingAxes
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-! ## A half re-laid as a matrix -/

/-- Row `f * 64 + c` of the re-laid real half is the half's `(c, f, .)`. -/
theorem pay7_apply (xr : Vec Ideal S1x64x32x128 .f32) (f : Fin 32) (c : Fin 64) (t : Fin 128) (r : Fin 2048)
    (hr : r.val = f.val * 64 + c.val) : k0_pay7 (F := Ideal) xr (ix2 r t) = xr (ix4 0 c f t) := by
  unfold k0_pay7
  refine (truncf_apply (ψ := .bf16) _ bitsLt_bf16_f32 (ix2 r t)).trans ?_
  refine (Cert.LibLeadingAxes.merge3_apply _ _ f c t r hr).trans ?_
  refine (Cert.LibMidAxis.transpose_ix3_102_apply _ _ f c t).trans ?_
  exact shapeCast_1abc_abc_apply _ _ c f t

/-- Row `f * 64 + c` of the re-laid imaginary half is the half's `(c, f, .)`. -/
theorem pay8_apply (xi : Vec Ideal S1x64x32x128 .f32) (f : Fin 32) (c : Fin 64) (t : Fin 128) (r : Fin 2048)
    (hr : r.val = f.val * 64 + c.val) : k0_pay8 (F := Ideal) xi (ix2 r t) = xi (ix4 0 c f t) := by
  unfold k0_pay8
  refine (truncf_apply (ψ := .bf16) _ bitsLt_bf16_f32 (ix2 r t)).trans ?_
  refine (Cert.LibLeadingAxes.merge3_apply _ _ f c t r hr).trans ?_
  refine (Cert.LibMidAxis.transpose_ix3_102_apply _ _ f c t).trans ?_
  exact shapeCast_1abc_abc_apply _ _ c f t

/-! ## A matrix times a weight plus a bias row, split back to frequencies by channels -/

/-- A `2048 x 128` matrix times a `128 x D` weight, accumulated from zero, plus a bias row spread over the rows, split
to `32 x 64 x D`: entry `(f, c, d)` is the sum over `t` of row `f * 64 + c` against column `d`, plus the bias at `d`. -/
theorem proj_core {D : Nat} {φ₁ φ₂ : FTy}
    (dd : DotDims ⟨2, ![2048, 128]⟩ ⟨2, ![128, D]⟩ ⟨2, ![2048, D]⟩)
    (hlc : dd.lhsContracting = [1]) (hrc : dd.rhsContracting = [0]) (hln : dd.lhsNonContracting = [0])
    (hrn : dd.rhsNonContracting = [1]) (hlb : dd.lhsBatch = []) (hrb : dd.rhsBatch = [])
    (lhs : FVec Ideal ⟨2, ![2048, 128]⟩ φ₁) (rhs : FVec Ideal ⟨2, ![128, D]⟩ φ₂) (b : FVec Ideal ⟨1, ![D]⟩ .f32)
    (h1 : (⟨1, ![D]⟩ : Shape).ShapeCasts ⟨2, ![1, D]⟩) (h2 : (⟨2, ![1, D]⟩ : Shape).Broadcasts ⟨2, ![2048, D]⟩)
    (h3 : (⟨2, ![2048, D]⟩ : Shape).ShapeCasts ⟨3, ![32, 64, D]⟩)
    (f : Fin 32) (c : Fin 64) (d : Fin D) (r : Fin 2048) (hr : r.val = f.val * 64 + c.val) :
    shapeCast ⟨3, ![32, 64, D]⟩
        (addf (matmul dd none lhs rhs (constant ⟨2, ![2048, D]⟩ .f32 0x00000000#32))
          (broadcastTo ⟨2, ![2048, D]⟩ (shapeCast ⟨2, ![1, D]⟩ b h1) h2)) h3 (ix3 f c d)
      = (∑ t : Fin 128, lhs (ix2 r t) * rhs (ix2 t d)) + b (ix1 d) := by
  refine (Cert.LibLeadingAxes.split3_apply _ h3 f c d r hr).trans ?_
  refine (addf_apply _ _ _).trans ?_
  refine congrArg₂ (· + ·) ?_ ?_
  · exact Cert.LibDotFormats.matmul_cols_zero_apply dd hlc hrc hln hrn hlb hrb none lhs rhs r d
  · refine (broadcastTo_1b_ab_apply _ h2 r d).trans ?_
    exact shapeCast_a_1a_apply b h1 0 d

/-- A weight passed through a cast to its own shape and a narrowing of the format is unchanged. -/
theorem pay9_apply (w : Vec Ideal S128x32 .f32) (i : S128x32.Idx) : k0_pay9 (F := Ideal) w i = w i := by
  unfold k0_pay9
  refine (truncf_apply (ψ := .bf16) _ bitsLt_bf16_f32 i).trans ?_
  exact congrFun (shapeCast_self w shapeCasts_S128x32_S128x32) i

theorem pay10_apply (w : Vec Ideal S128x32 .f32) (i : S128x32.Idx) : k0_pay10 (F := Ideal) w i = w i := by
  unfold k0_pay10
  refine (truncf_apply (ψ := .bf16) _ bitsLt_bf16_f32 i).trans ?_
  exact congrFun (shapeCast_self w shapeCasts_S128x32_S128x32) i

theorem pay11_apply (w : Vec Ideal S128x128 .f32) (i : S128x128.Idx) : k0_pay11 (F := Ideal) w i = w i := by
  unfold k0_pay11
  refine (truncf_apply (ψ := .bf16) _ bitsLt_bf16_f32 i).trans ?_
  exact congrFun (shapeCast_self w shapeCasts_S128x128_S128x128) i

/-! ## The projections -/

/-- The key projection of the real half. -/
theorem pay12_apply (xr : Vec Ideal S1x64x32x128 .f32) (wk : Vec Ideal S128x32 .f32) (bk : Vec Ideal S32 .f32)
    (f : Fin 32) (c : Fin 64) (d : Fin 32) :
    k0_pay12 (F := Ideal) xr wk bk (ix3 f c d) = (∑ t : Fin 128, xr (ix4 0 c f t) * wk (ix2 t d)) + bk (ix1 d) := by
  have hr : (⟨f.val * 64 + c.val, by omega⟩ : Fin 2048).val = f.val * 64 + c.val := rfl
  unfold k0_pay12
  refine (proj_core dot_S2048x128_S128x32_S2048x32_1_0_0_1_n_n rfl rfl rfl rfl rfl rfl (k0_pay7 xr) (k0_pay9 wk) bk
    shapeCasts_S32_S1x32 broadcasts_S1x32_S2048x32 shapeCasts_S2048x32_S32x64x32 f c d _ hr).trans ?_
  refine congrArg (· + bk (ix1 d)) (Finset.sum_congr rfl fun t _ => ?_)
  rw [pay7_apply xr f c t _ hr, pay9_apply]

/-- The key projection of the imaginary half. -/
theorem pay13_apply (xi : Vec Ideal S1x64x32x128 .f32) (wk : Vec Ideal S128x32 .f32) (bk : Vec Ideal S32 .f32)
    (f : Fin 32) (c : Fin 64) (d : Fin 32) :
    k0_pay13 (F := Ideal) xi wk bk (ix3 f c d) = (∑ t : Fin 128, xi (ix4 0 c f t) * wk (ix2 t d)) + bk (ix1 d) := by
  have hr : (⟨f.val * 64 + c.val, by omega⟩ : Fin 2048).val = f.val * 64 + c.val := rfl
  unfold k0_pay13
  refine (proj_core dot_S2048x128_S128x32_S2048x32_1_0_0_1_n_n rfl rfl rfl rfl rfl rfl (k0_pay8 xi) (k0_pay9 wk) bk
    shapeCasts_S32_S1x32 broadcasts_S1x32_S2048x32 shapeCasts_S2048x32_S32x64x32 f c d _ hr).trans ?_
  refine congrArg (· + bk (ix1 d)) (Finset.sum_congr rfl fun t _ => ?_)
  rw [pay8_apply xi f c t _ hr, pay9_apply]

/-- The query projection of the real half. -/
theorem pay14_apply (xr : Vec Ideal S1x64x32x128 .f32) (wq : Vec Ideal S128x32 .f32) (bq : Vec Ideal S32 .f32)
    (f : Fin 32) (c : Fin 64) (d : Fin 32) :
    k0_pay14 (F := Ideal) xr wq bq (ix3 f c d) = (∑ t : Fin 128, xr (ix4 0 c f t) * wq (ix2 t d)) + bq (ix1 d) := by
  have hr : (⟨f.val * 64 + c.val, by omega⟩ : Fin 2048).val = f.val * 64 + c.val := rfl
  unfold k0_pay14
  refine (proj_core dot_S2048x128_S128x32_S2048x32_1_0_0_1_n_n rfl rfl rfl rfl rfl rfl (k0_pay7 xr) (k0_pay10 wq) bq
    shapeCasts_S32_S1x32 broadcasts_S1x32_S2048x32 shapeCasts_S2048x32_S32x64x32 f c d _ hr).trans ?_
  refine congrArg (· + bq (ix1 d)) (Finset.sum_congr rfl fun t _ => ?_)
  rw [pay7_apply xr f c t _ hr, pay10_apply]

/-- The query projection of the imaginary half (its result narrowed, which changes nothing at the ideal values). -/
theorem pay19_apply (xi : Vec Ideal S1x64x32x128 .f32) (wq : Vec Ideal S128x32 .f32) (bq : Vec Ideal S32 .f32)
    (f : Fin 32) (c : Fin 64) (d : Fin 32) :
    k0_pay19 (F := Ideal) (k0_pay8 xi) (k0_pay10 wq) bq (constant S2048x32 .f32 0x00000000#32) (ix3 f c d)
      = (∑ t : Fin 128, xi (ix4 0 c f t) * wq (ix2 t d)) + bq (ix1 d) := by
  have hr : (⟨f.val * 64 + c.val, by omega⟩ : Fin 2048).val = f.val * 64 + c.val := rfl
  unfold k0_pay19
  refine (truncf_apply (ψ := .bf16) _ bitsLt_bf16_f32 (ix3 f c d)).trans ?_
  refine (proj_core dot_S2048x128_S128x32_S2048x32_1_0_0_1_n_n rfl rfl rfl rfl rfl rfl (k0_pay8 xi) (k0_pay10 wq) bq
    shapeCasts_S32_S1x32 broadcasts_S1x32_S2048x32 shapeCasts_S2048x32_S32x64x32 f c d _ hr).trans ?_
  refine congrArg (· + bq (ix1 d)) (Finset.sum_congr rfl fun t _ => ?_)
  rw [pay8_apply xi f c t _ hr, pay10_apply]

/-- The value projection of the imaginary half. -/
theorem pay15_apply (xi : Vec Ideal S1x64x32x128 .f32) (wv : Vec Ideal S128x128 .f32) (bv : Vec Ideal S128 .f32)
    (f : Fin 32) (c : Fin 64) (t' : Fin 128) :
    k0_pay15 (F := Ideal) (k0_pay8 xi) (k0_pay11 wv) bv (ix3 f c t')
      = (∑ t : Fin 128, xi (ix4 0 c f t) * wv (ix2 t t')) + bv (ix1 t') := by
  have hr : (⟨f.val * 64 + c.val, by omega⟩ : Fin 2048).val = f.val * 64 + c.val := rfl
  unfold k0_pay15
  refine (proj_core dot_S2048x128_S128x128_S2048x128_1_0_0_1_n_n rfl rfl rfl rfl rfl rfl (k0_pay8 xi) (k0_pay11 wv) bv
    shapeCasts_S128_S1x128 broadcasts_S1x128_S2048x128 shapeCasts_S2048x128_S32x64x128 f c t' _ hr).trans ?_
  refine congrArg (· + bv (ix1 t')) (Finset.sum_congr rfl fun t _ => ?_)
  rw [pay8_apply xi f c t _ hr, pay11_apply]

/-- The value projection of the real half, with its last two axes swapped: entry `(f, t', c)`. -/
theorem pay22_apply (xr : Vec Ideal S1x64x32x128 .f32) (wv : Vec Ideal S128x128 .f32) (bv : Vec Ideal S128 .f32)
    (f : Fin 32) (t' : Fin 128) (c : Fin 64) :
    k0_pay22 (F := Ideal) (k0_pay7 xr) (k0_pay11 wv) bv (ix3 f t' c)
      = (∑ t : Fin 128, xr (ix4 0 c f t) * wv (ix2 t t')) + bv (ix1 t') := by
  have hr : (⟨f.val * 64 + c.val, by omega⟩ : Fin 2048).val = f.val * 64 + c.val := rfl
  unfold k0_pay22
  refine (transpose_ix3_021_apply _ transposes_S32x64x128_p0_2_1_S32x128x64 f t' c).trans ?_
  refine (proj_core dot_S2048x128_S128x128_S2048x128_1_0_0_1_n_n rfl rfl rfl rfl rfl rfl (k0_pay7 xr) (k0_pay11 wv) bv
    shapeCasts_S128_S1x128 broadcasts_S1x128_S2048x128 shapeCasts_S2048x128_S32x64x128 f c t' _ hr).trans ?_
  refine congrArg (· + bv (ix1 t')) (Finset.sum_congr rfl fun t _ => ?_)
  rw [pay7_apply xr f c t _ hr, pay11_apply]

end Cert.KernelIdeal.Body

end
-- ==== Proof.LibBatchDot.lean ====
/-
  Batched matrix products with one leading batch axis, read at an index, for operands of any float formats.

  Two arrangements of the dimension numbers of a rank-3 product whose first axis is the batch axis of both
  operands and of the result:
  * rows by rows inside each batch item: an `N × I × K` left operand against an `N × J × K` right operand, the
    last axis of both contracted; entry `(n, i, j)` is `∑ k, f (n, i, k) · g (n, j, k)`;
  * rows by columns inside each batch item: an `N × I × J` left operand against an `N × J × O` right operand,
    the left operand's last axis contracted against the right operand's middle axis; entry `(n, i, o)` is
    `∑ j, f (n, i, j) · g (n, j, o)`.
  In both the contraction index has one coordinate. A record with given dimension numbers is determined by them
  up to the proof of its side conditions, on which no operand index depends, so the operand indices compute.
  The operands' element formats are arbitrary (at the ideal values every format is the extended reals).
-/
import Idealize.ShloMosaic.PureOps.Ideal
import Idealize.ShloMosaic.PureOps.Ideal.Laws
import Idealize.ShloMosaic.Lib.ValueIdx

noncomputable section

namespace Cert.LibBatchDot

open Idealize.ShloMosaic Idealize.ShloMosaic.ValueIdx
open scoped BigOperators

/-! ## Rows by rows inside each item: `[N, I, K] × [N, J, K]`, contracting `[2] × [2]`, batch `[0] × [0]` -/

section RowsRows

variable {N I J K : Nat}

/-- The record with these dimension numbers, for any proof of its side conditions. -/
abbrev rr (wf : DotDims.WF ⟨3, ![N, I, K]⟩ ⟨3, ![N, J, K]⟩ ⟨3, ![N, I, J]⟩ [2] [2] [1] [1] [0] [0]) :
    DotDims ⟨3, ![N, I, K]⟩ ⟨3, ![N, J, K]⟩ ⟨3, ![N, I, J]⟩ := ⟨[2], [2], [1], [1], [0], [0], wf⟩

variable (wf : DotDims.WF ⟨3, ![N, I, K]⟩ ⟨3, ![N, J, K]⟩ ⟨3, ![N, I, J]⟩ [2] [2] [1] [1] [0] [0])

/-- The contraction shape has one axis … -/
theorem rr_rank : (rr wf).contr.rank = 1 := rfl
/-- … of extent `K`. -/
theorem rr_size : (rr wf).contr.size ⟨0, by rw [rr_rank]; exact Nat.one_pos⟩ = K := rfl

/-- At result index `(n, i, j)` and contraction coordinate `k` the left operand is read at `(n, i, k)`. -/
theorem rr_lhs (n : Fin N) (i : Fin I) (j : Fin J) (k : Fin K) :
    (rr wf).lhsIdx (ix3 n i j) ((contrEquiv1 (rr wf) K (rr_rank wf) (rr_size wf)).symm k) = ix3 n i k := by
  funext a
  apply Fin.ext
  match a with
  | ⟨0, _⟩ => rfl
  | ⟨1, _⟩ => rfl
  | ⟨2, _⟩ => rfl

/-- … and the right operand at `(n, j, k)`. -/
theorem rr_rhs (n : Fin N) (i : Fin I) (j : Fin J) (k : Fin K) :
    (rr wf).rhsIdx (ix3 n i j) ((contrEquiv1 (rr wf) K (rr_rank wf) (rr_size wf)).symm k) = ix3 n j k := by
  funext a
  apply Fin.ext
  match a with
  | ⟨0, _⟩ => rfl
  | ⟨1, _⟩ => rfl
  | ⟨2, _⟩ => rfl

/-- The sum over the contraction index is the sum over `k : Fin K` of `f (n, i, k) · g (n, j, k)`. -/
theorem rr_sum (f : (⟨3, ![N, I, K]⟩ : Shape).Idx → EReal) (g : (⟨3, ![N, J, K]⟩ : Shape).Idx → EReal)
    (n : Fin N) (i : Fin I) (j : Fin J) :
    ∑ q : (rr wf).contr.Idx, f ((rr wf).lhsIdx (ix3 n i j) q) * g ((rr wf).rhsIdx (ix3 n i j) q)
      = ∑ k : Fin K, f (ix3 n i k) * g (ix3 n j k) := by
  rw [← Equiv.sum_comp (contrEquiv1 (rr wf) K (rr_rank wf) (rr_size wf)).symm]
  refine Finset.sum_congr rfl fun k _ => ?_
  rw [rr_lhs, rr_rhs]

/-- A batched product into the zero accumulator, at `(n, i, j)`: `∑ k, lhs (n, i, k) · rhs (n, j, k)`. -/
theorem matmul_rows_rows_zero_apply {φ₁ φ₂ : FTy} (d : DotDims ⟨3, ![N, I, K]⟩ ⟨3, ![N, J, K]⟩ ⟨3, ![N, I, J]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (lhs : FVec Ideal ⟨3, ![N, I, K]⟩ φ₁) (rhs : FVec Ideal ⟨3, ![N, J, K]⟩ φ₂)
    (n : Fin N) (i : Fin I) (j : Fin J) :
    FloatOps.matmul d prec lhs rhs (constant ⟨3, ![N, I, J]⟩ .f32 0x00000000#32) (ix3 n i j)
      = ∑ k : Fin K, lhs (ix3 n i k) * rhs (ix3 n j k) := by
  obtain ⟨lc, rc, ln, rn, lb, rb, w⟩ := d
  simp only at hlc hrc hln hrn hlb hrb
  subst hlc hrc hln hrn hlb hrb
  rw [Ideal.matmul_constant_zero_apply]
  exact rr_sum w lhs rhs n i j

/-- The host's batched product at `(n, i, j)`, whatever its schedule key: the same sum. -/
theorem dotGeneral_rows_rows_apply {φ₁ φ₂ : FTy} (d : DotDims ⟨3, ![N, I, K]⟩ ⟨3, ![N, J, K]⟩ ⟨3, ![N, I, J]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (sched : HostSchedule) (lhs : FVec Ideal ⟨3, ![N, I, K]⟩ φ₁)
    (rhs : FVec Ideal ⟨3, ![N, J, K]⟩ φ₂) (n : Fin N) (i : Fin I) (j : Fin J) :
    FloatOps.dotGeneral d prec sched lhs rhs (ix3 n i j) = ∑ k : Fin K, lhs (ix3 n i k) * rhs (ix3 n j k) := by
  obtain ⟨lc, rc, ln, rn, lb, rb, w⟩ := d
  simp only at hlc hrc hln hrn hlb hrb
  subst hlc hrc hln hrn hlb hrb
  rw [Ideal.dotGeneral_apply]
  exact rr_sum w lhs rhs n i j

end RowsRows

/-! ## Rows by columns inside each item: `[N, I, J] × [N, J, O]`, contracting `[2] × [1]`, batch `[0] × [0]` -/

section RowsCols

variable {N I J O : Nat}

/-- The record with these dimension numbers, for any proof of its side conditions. -/
abbrev rc (wf : DotDims.WF ⟨3, ![N, I, J]⟩ ⟨3, ![N, J, O]⟩ ⟨3, ![N, I, O]⟩ [2] [1] [1] [2] [0] [0]) :
    DotDims ⟨3, ![N, I, J]⟩ ⟨3, ![N, J, O]⟩ ⟨3, ![N, I, O]⟩ := ⟨[2], [1], [1], [2], [0], [0], wf⟩

variable (wf : DotDims.WF ⟨3, ![N, I, J]⟩ ⟨3, ![N, J, O]⟩ ⟨3, ![N, I, O]⟩ [2] [1] [1] [2] [0] [0])

/-- The contraction shape has one axis … -/
theorem rc_rank : (rc wf).contr.rank = 1 := rfl
/-- … of extent `J`. -/
theorem rc_size : (rc wf).contr.size ⟨0, by rw [rc_rank]; exact Nat.one_pos⟩ = J := rfl

/-- At result index `(n, i, o)` and contraction coordinate `j` the left operand is read at `(n, i, j)`. -/
theorem rc_lhs (n : Fin N) (i : Fin I) (o : Fin O) (j : Fin J) :
    (rc wf).lhsIdx (ix3 n i o) ((contrEquiv1 (rc wf) J (rc_rank wf) (rc_size wf)).symm j) = ix3 n i j := by
  funext a
  apply Fin.ext
  match a with
  | ⟨0, _⟩ => rfl
  | ⟨1, _⟩ => rfl
  | ⟨2, _⟩ => rfl

/-- … and the right operand at `(n, j, o)`. -/
theorem rc_rhs (n : Fin N) (i : Fin I) (o : Fin O) (j : Fin J) :
    (rc wf).rhsIdx (ix3 n i o) ((contrEquiv1 (rc wf) J (rc_rank wf) (rc_size wf)).symm j) = ix3 n j o := by
  funext a
  apply Fin.ext
  match a with
  | ⟨0, _⟩ => rfl
  | ⟨1, _⟩ => rfl
  | ⟨2, _⟩ => rfl

/-- The sum over the contraction index is the sum over `j : Fin J` of `f (n, i, j) · g (n, j, o)`. -/
theorem rc_sum (f : (⟨3, ![N, I, J]⟩ : Shape).Idx → EReal) (g : (⟨3, ![N, J, O]⟩ : Shape).Idx → EReal)
    (n : Fin N) (i : Fin I) (o : Fin O) :
    ∑ q : (rc wf).contr.Idx, f ((rc wf).lhsIdx (ix3 n i o) q) * g ((rc wf).rhsIdx (ix3 n i o) q)
      = ∑ j : Fin J, f (ix3 n i j) * g (ix3 n j o) := by
  rw [← Equiv.sum_comp (contrEquiv1 (rc wf) J (rc_rank wf) (rc_size wf)).symm]
  refine Finset.sum_congr rfl fun j _ => ?_
  rw [rc_lhs, rc_rhs]

/-- A batched product into the zero accumulator, at `(n, i, o)`: `∑ j, lhs (n, i, j) · rhs (n, j, o)`. -/
theorem matmul_rows_cols_zero_apply {φ₁ φ₂ : FTy} (d : DotDims ⟨3, ![N, I, J]⟩ ⟨3, ![N, J, O]⟩ ⟨3, ![N, I, O]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (lhs : FVec Ideal ⟨3, ![N, I, J]⟩ φ₁) (rhs : FVec Ideal ⟨3, ![N, J, O]⟩ φ₂)
    (n : Fin N) (i : Fin I) (o : Fin O) :
    FloatOps.matmul d prec lhs rhs (constant ⟨3, ![N, I, O]⟩ .f32 0x00000000#32) (ix3 n i o)
      = ∑ j : Fin J, lhs (ix3 n i j) * rhs (ix3 n j o) := by
  obtain ⟨lc, rc', ln, rn, lb, rb, w⟩ := d
  simp only at hlc hrc hln hrn hlb hrb
  subst hlc hrc hln hrn hlb hrb
  rw [Ideal.matmul_constant_zero_apply]
  exact rc_sum w lhs rhs n i o

/-- The host's batched product at `(n, i, o)`, whatever its schedule key: the same sum. -/
theorem dotGeneral_rows_cols_apply {φ₁ φ₂ : FTy} (d : DotDims ⟨3, ![N, I, J]⟩ ⟨3, ![N, J, O]⟩ ⟨3, ![N, I, O]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (sched : HostSchedule) (lhs : FVec Ideal ⟨3, ![N, I, J]⟩ φ₁)
    (rhs : FVec Ideal ⟨3, ![N, J, O]⟩ φ₂) (n : Fin N) (i : Fin I) (o : Fin O) :
    FloatOps.dotGeneral d prec sched lhs rhs (ix3 n i o) = ∑ j : Fin J, lhs (ix3 n i j) * rhs (ix3 n j o) := by
  obtain ⟨lc, rc', ln, rn, lb, rb, w⟩ := d
  simp only at hlc hrc hln hrn hlb hrb
  subst hlc hrc hln hrn hlb hrb
  rw [Ideal.dotGeneral_apply]
  exact rc_sum w lhs rhs n i o

end RowsCols

end Cert.LibBatchDot

end
-- ==== Proof.LibKeepRow.lean ====
/-
  The row a reduction over the MIDDLE axis keeps, read at an index.

  `x[:, None, :]` followed by a broadcast along the new axis: an `[a, c]` array cast to `[a, 1, c]` reads, at `(i, u, k)`, the
  operand at `(i, k)` (`shapeCast_ac_a1c_apply`: a unit axis in the middle does not move the row-major position); an
  `[a, 1, c]` array broadcast along its middle axis to `[a, b, c]` reads, at `(i, j, k)`, the operand at `(i, 0, k)`
  (`broadcastTo_a1c_abc_apply`); the two together read the `[a, c]` array at `(i, k)` (`keptRow_apply`). Any sizes and
  element type. (The trailing-axis forms `[a, b] → [a, b, 1] → [a, b, c]` are the companion file's.)
-/
import Idealize.ShloMosaic.Lib.ValueIdx
import Idealize.ShloMosaic.Lib.Pipeline.Value

namespace Cert.LibKeepRow

open Idealize.ShloMosaic Idealize.ShloMosaic.ValueIdx

/-- An `[a, c]` array cast to `[a, 1, c]` reads, at `(i, u, k)`, the operand at `(i, k)`: a unit axis in the middle
    does not move the row-major position. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array broadcast along its middle axis to `[a, b, c]` reads, at `(i, j, k)`, the operand at
    `(i, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, the row a reduction over the middle axis keeps: every entry `(i, j, k)` of the broadcast reads
    the `[a, c]` array at `(i, k)`. -/
theorem keptRow_apply {α : Type} {a b c : ℕ} (x : (⟨2, ![a, c]⟩ : Shape).Idx → α)
    (h1 : (⟨2, ![a, c]⟩ : Shape).ShapeCasts ⟨3, ![a, 1, c]⟩)
    (h2 : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h1) h2 (ix3 i j k) = x (ix2 i k) :=
  (broadcastTo_a1c_abc_apply _ h2 i j k).trans (shapeCast_ac_a1c_apply x h1 i 0 k)

end Cert.LibKeepRow
-- ==== Proof.KSoft.lean ====
/-
  The kernel's two softmax weight arrays, read at an index, at the ideal values.

  For each frequency `f` the kernel forms a `64 × 64` score array over the channel pairs `(c, e)`: each entry is built
  from sums over the 32 features of products of a key entry at `(f, c, ·)` with a query entry at `(f, e, ·)` (a batched
  product contracting the last axis of both operands, into the zero accumulator). The real part is the difference of
  two such sums and the imaginary part the sum of two. Each score array is then normalised over `c`, the MIDDLE axis:
  the maximum over `c` (a fold of `max` from the word of minus infinity, then once more `max` against that word),
  that row spread back over `c`, the difference, the exponential, the sum over `c`, that row spread back, the quotient.
  Read at `(f, c, e)` this is the softmax, at `c`, of the column `c' ↦ score (f, c', e)`.

  The normalisation is proved once for an arbitrary score array (`softmaxMid_apply`); the two payloads are that lemma
  at the two score arrays, whose entries are read off by the batched-product lemma. Narrowing an operand to a shorter
  format is the identity at the ideal values, so the narrowed operands read as the operands themselves.
-/
import proofs.«102360_j62723702391454_1_alg».proof.Proof.Gen.KernelIdeal.Skeleton
import proofs.«102360_j62723702391454_1_alg».proof.Proof.Spec
import proofs.«102360_j62723702391454_1_alg».proof.Proof.LibMidAxis
import proofs.«102360_j62723702391454_1_alg».proof.Proof.LibBatchDot
import proofs.«102360_j62723702391454_1_alg».proof.Proof.LibKeepRow

noncomputable section

namespace Cert.KernelIdeal.Body

open Cert.KernelIdeal Cert.KernelIdeal.Gen Idealize.ShloMosaic Idealize.ShloMosaic.ValueIdx
open scoped BigOperators

namespace KSoft

/-! ## The normalisation over the middle axis, for any score array -/

/-- The row of column maxima as the kernel takes it: the maximum over the middle axis from the word of minus infinity,
    then once more the maximum against that word. -/
def colMaxRow (S : FVec Ideal S32x64x64 .f32) : FVec Ideal S32x64 .f32 :=
  maximumf (broadcast S32x64 (Scalar.ofBits .f32 0xFF800000#32))
    (multiReduction .maximumf [1] S32x64 S 0xFF800000#32 reduces_S32x64x64_S32x64 (.inl rfl) rfl)

/-- The score array less its column maxima, spread back over the middle axis. -/
def shifted (S : FVec Ideal S32x64x64 .f32) : FVec Ideal S32x64x64 .f32 :=
  subf S (broadcastTo S32x64x64 (shapeCast S32x1x64 (colMaxRow S) shapeCasts_S32x64_S32x1x64)
    broadcasts_S32x1x64_S32x64x64)

/-- The kernel's softmax over the middle axis: the exponential of the shifted array over its column sums. -/
def softmaxMid (S : FVec Ideal S32x64x64 .f32) : FVec Ideal S32x64x64 .f32 :=
  divf (exp (shifted S))
    (broadcastTo S32x64x64
      (shapeCast S32x1x64
        (multiReduction .add [1] S32x64 (exp (shifted S)) 0x00000000#32 reduces_S32x64x64_S32x64 (.inl rfl) rfl)
        shapeCasts_S32x64_S32x1x64)
      broadcasts_S32x1x64_S32x64x64)

/-- The column maximum at `(f, e)` is the specification's maximum of the column `c' ↦ S (f, c', e)`. -/
theorem colMaxRow_apply (S : FVec Ideal S32x64x64 .f32) (f : Fin 32) (e : Fin 64) :
    colMaxRow S (ix2 f e) = Cert.Attn.colMax (fun c' : Fin 64 => S (ix3 f c' e)) := by
  refine (maximumf_apply _ _ _).trans ?_
  exact congrArg (max (Ideal.ofBits .f32 0xFF800000#32))
    (Cert.LibMidAxis.multiReduction_maximumf_mid S _ _ _ _ f e)

/-- The shifted array at `(f, c, e)`: the entry less its column's maximum. -/
theorem shifted_apply (S : FVec Ideal S32x64x64 .f32) (f : Fin 32) (c e : Fin 64) :
    shifted S (ix3 f c e) = S (ix3 f c e) - Cert.Attn.colMax (fun c' : Fin 64 => S (ix3 f c' e)) := by
  refine (subf_apply _ _ _).trans ?_
  exact congrArg (fun m => S (ix3 f c e) - m)
    ((Cert.LibKeepRow.keptRow_apply _ _ _ f c e).trans (colMaxRow_apply S f e))

/-- The exponential of the shifted array at `(f, c, e)`. -/
theorem exp_shifted_apply (S : FVec Ideal S32x64x64 .f32) (f : Fin 32) (c e : Fin 64) :
    exp (shifted S) (ix3 f c e)
      = Ideal.exp (S (ix3 f c e) - Cert.Attn.colMax (fun c' : Fin 64 => S (ix3 f c' e))) :=
  congrArg Ideal.exp (shifted_apply S f c e)

/-- The kernel's softmax over the middle axis at `(f, c, e)` is the softmax, at `c`, of the column
    `c' ↦ S (f, c', e)`. -/
theorem softmaxMid_apply (S : FVec Ideal S32x64x64 .f32) (f : Fin 32) (c e : Fin 64) :
    softmaxMid S (ix3 f c e) = Cert.Attn.softmaxCol (fun c' : Fin 64 => S (ix3 f c' e)) c := by
  refine (divf_apply _ _ _).trans ?_
  unfold Cert.Attn.softmaxCol
  refine congrArg₂ Ideal.div (exp_shifted_apply S f c e) ?_
  refine (Cert.LibKeepRow.keptRow_apply _ _ _ f c e).trans ?_
  refine (Cert.LibMidAxis.multiReduction_add_mid _ _ _ _ _ f e).trans ?_
  exact Finset.sum_congr rfl fun c' _ => exp_shifted_apply S f c' e

/-! ## The score arrays -/

/-- One batched product of the score at `(f, c, e)`: the sum over the features of the left operand at `(f, c, ·)`
    times the right operand at `(f, e, ·)`, whatever the operands' formats. -/
theorem scoreDot_apply {φ₁ φ₂ : FTy} (a : FVec Ideal S32x64x32 φ₁) (b : FVec Ideal S32x64x32 φ₂)
    (f : Fin 32) (c e : Fin 64) :
    matmul dot_S32x64x32_S32x64x32_S32x64x64_2_2_1_1_0_0 none a b (constant S32x64x64 .f32 0x00000000#32) (ix3 f c e)
      = ∑ d : Fin 32, a (ix3 f c d) * b (ix3 f e d) :=
  Cert.LibBatchDot.matmul_rows_rows_zero_apply _ rfl rfl rfl rfl rfl rfl none a b f c e

end KSoft

open KSoft

/-! ## The two payloads -/

/-- The real softmax weights at `(f, c, e)`: the softmax over `c` of the real part of the score. -/
theorem pay20_apply (v9 : FVec Ideal S2048x128 .bf16) (v15 : FVec Ideal S128x32 .bf16) (v20 : Vec Ideal S32 .f32)
    (v26 v31 v36 : FVec Ideal S32x64x32 .f32) (cst17 : FVec Ideal S2048x32 .f32) (f : Fin 32) (c e : Fin 64) :
    k0_pay20 (F := Ideal) v9 v15 v20 v26 v31 v36 cst17 (ix3 f c e)
      = Cert.Attn.softmaxCol (fun c' : Fin 64 =>
          (∑ d : Fin 32, v26 (ix3 f c' d) * v36 (ix3 f e d))
            - ∑ d : Fin 32, v31 (ix3 f c' d) * k0_pay19 (F := Ideal) v9 v15 v20 cst17 (ix3 f e d)) c := by
  refine (softmaxMid_apply
    (subf
      (matmul dot_S32x64x32_S32x64x32_S32x64x64_2_2_1_1_0_0 none (k0_pay16 v26) (k0_pay18 v36)
        (constant S32x64x64 .f32 0x00000000#32))
      (matmul dot_S32x64x32_S32x64x32_S32x64x64_2_2_1_1_0_0 none (k0_pay17 v31) (k0_pay19 v9 v15 v20 cst17)
        (constant S32x64x64 .f32 0x00000000#32))) f c e).trans ?_
  refine congrArg (fun p : Fin 64 → EReal => Cert.Attn.softmaxCol p c) (funext fun c' => ?_)
  refine (subf_apply _ _ _).trans ?_
  exact congrArg₂ (fun x y : EReal => x - y) (scoreDot_apply (k0_pay16 v26) (k0_pay18 v36) f c' e)
    (scoreDot_apply (k0_pay17 v31) (k0_pay19 v9 v15 v20 cst17) f c' e)

/-- The imaginary softmax weights at `(f, c, e)`: the softmax over `c` of the imaginary part of the score. -/
theorem pay21_apply (v9 : FVec Ideal S2048x128 .bf16) (v15 : FVec Ideal S128x32 .bf16) (v20 : Vec Ideal S32 .f32)
    (v26 v31 v36 : FVec Ideal S32x64x32 .f32) (cst17 : FVec Ideal S2048x32 .f32) (f : Fin 32) (c e : Fin 64) :
    k0_pay21 (F := Ideal) v9 v15 v20 v26 v31 v36 cst17 (ix3 f c e)
      = Cert.Attn.softmaxCol (fun c' : Fin 64 =>
          (∑ d : Fin 32, v26 (ix3 f c' d) * k0_pay19 (F := Ideal) v9 v15 v20 cst17 (ix3 f e d))
            + ∑ d : Fin 32, v31 (ix3 f c' d) * v36 (ix3 f e d)) c := by
  refine (softmaxMid_apply
    (addf
      (matmul dot_S32x64x32_S32x64x32_S32x64x64_2_2_1_1_0_0 none (k0_pay16 v26) (k0_pay19 v9 v15 v20 cst17)
        (constant S32x64x64 .f32 0x00000000#32))
      (matmul dot_S32x64x32_S32x64x32_S32x64x64_2_2_1_1_0_0 none (k0_pay17 v31) (k0_pay18 v36)
        (constant S32x64x64 .f32 0x00000000#32))) f c e).trans ?_
  refine congrArg (fun p : Fin 64 → EReal => Cert.Attn.softmaxCol p c) (funext fun c' => ?_)
  refine (addf_apply _ _ _).trans ?_
  exact congrArg₂ (fun x y : EReal => x + y) (scoreDot_apply (k0_pay16 v26) (k0_pay19 v9 v15 v20 cst17) f c' e)
    (scoreDot_apply (k0_pay17 v31) (k0_pay18 v36) f c' e)

end Cert.KernelIdeal.Body

end
-- ==== Proof.KOut.lean ====
/-
  The kernel's two output arrays, read at an index, at the ideal values.

  For each frequency `f` the output at feature `t` and channel `e` is a complex product summed over the channels `c`:
  the values at `(f, t, c)` against the weights at `(f, c, e)` (a batched product contracting the left operand's last
  axis against the right operand's middle axis, into the zero accumulator). The real part is the difference of two such
  sums, the imaginary part the sum of two. One of the two value arrays is given with its last two axes the other way
  round and is transposed first, so it is read at `(f, c, t)`. The result `(f, t, e)` then has its last axis brought to
  the front, `(e, f, t)`, and a leading unit axis added. Narrowing an operand to a shorter format is the identity at the
  ideal values, so the narrowed operands read as the operands themselves.
-/
import proofs.«102360_j62723702391454_1_alg».proof.Proof.Gen.KernelIdeal.Skeleton
import proofs.«102360_j62723702391454_1_alg».proof.Proof.Spec
import proofs.«102360_j62723702391454_1_alg».proof.Proof.LibMidAxis
import proofs.«102360_j62723702391454_1_alg».proof.Proof.LibBatchDot
import Idealize.ShloMosaic.Lib.ValueLayout

noncomputable section

namespace Cert.KernelIdeal.Body

open Cert.KernelIdeal Cert.KernelIdeal.Gen Idealize.ShloMosaic Idealize.ShloMosaic.ValueIdx
open scoped BigOperators

namespace KOut

/-! ## The operands -/

/-- The transposed value array at `(f, t, c)` is the value array at `(f, c, t)`. -/
theorem pay2_apply (v51 : FVec Ideal S32x64x128 .f32) (f : Fin 32) (t : Fin 128) (c : Fin 64) :
    k0_pay2 (F := Ideal) v51 (ix3 f t c) = v51 (ix3 f c t) :=
  transpose_ix3_021_apply v51 transposes_S32x64x128_p0_2_1_S32x128x64 f t c

/-- One batched product of the output at `(f, t, e)`: the sum over the channels of the left operand at `(f, t, ·)`
    times the right operand at `(f, ·, e)`, whatever the operands' formats. -/
theorem outDot_apply {φ₁ φ₂ : FTy} (a : FVec Ideal S32x128x64 φ₁) (b : FVec Ideal S32x64x64 φ₂)
    (f : Fin 32) (t : Fin 128) (e : Fin 64) :
    matmul dot_S32x128x64_S32x64x64_S32x128x64_2_1_1_2_0_0 none a b (constant S32x128x64 .f32 0x00000000#32) (ix3 f t e)
      = ∑ c : Fin 64, a (ix3 f t c) * b (ix3 f c e) :=
  Cert.LibBatchDot.matmul_rows_cols_zero_apply _ rfl rfl rfl rfl rfl rfl none a b f t e

/-- The last axis brought to the front and a leading unit axis added: the result at `(0, e, f, t)` is the operand at
    `(f, t, e)`. -/
theorem toFront_apply (x : FVec Ideal S32x128x64 .f32) (e : Fin 64) (f : Fin 32) (t : Fin 128) :
    shapeCast S1x64x32x128 (transpose S64x32x128 [2, 0, 1] x transposes_S32x128x64_p2_0_1_S64x32x128)
        shapeCasts_S64x32x128_S1x64x32x128 (ix4 (0 : Fin 1) e f t)
      = x (ix3 f t e) :=
  (shapeCast_abc_1abc_apply _ _ (0 : Fin 1) e f t).trans
    (Cert.LibMidAxis.transpose_ix3_201_apply x _ e f t)

end KOut

open KOut

/-! ## The two payloads -/

/-- The real part of the output at `(0, e, f, t)`. -/
theorem pay5_apply (v51 : FVec Ideal S32x64x128 .f32) (v72 v83 : FVec Ideal S32x64x64 .f32)
    (v84 : FVec Ideal S32x128x64 .f32) (e : Fin 64) (f : Fin 32) (t : Fin 128) :
    k0_pay5 (F := Ideal) v51 v72 v83 v84 (ix4 (0 : Fin 1) e f t)
      = (∑ c : Fin 64, v84 (ix3 f t c) * v72 (ix3 f c e)) - ∑ c : Fin 64, v51 (ix3 f c t) * v83 (ix3 f c e) := by
  refine (toFront_apply
    (subf
      (matmul dot_S32x128x64_S32x64x64_S32x128x64_2_1_1_2_0_0 none (k0_pay1 v84) (k0_pay3 v72)
        (constant S32x128x64 .f32 0x00000000#32))
      (matmul dot_S32x128x64_S32x64x64_S32x128x64_2_1_1_2_0_0 none (k0_pay2 v51) (k0_pay4 v83)
        (constant S32x128x64 .f32 0x00000000#32))) e f t).trans ?_
  refine (subf_apply _ _ _).trans ?_
  refine congrArg₂ (fun x y : EReal => x - y) (outDot_apply (k0_pay1 v84) (k0_pay3 v72) f t e) ?_
  refine (outDot_apply (k0_pay2 v51) (k0_pay4 v83) f t e).trans ?_
  exact Finset.sum_congr rfl fun c _ => congrArg (fun x : EReal => x * v83 (ix3 f c e)) (pay2_apply v51 f t c)

/-- The imaginary part of the output at `(0, e, f, t)`. -/
theorem pay6_apply (v51 : FVec Ideal S32x64x128 .f32) (v72 v83 : FVec Ideal S32x64x64 .f32)
    (v84 : FVec Ideal S32x128x64 .f32) (e : Fin 64) (f : Fin 32) (t : Fin 128) :
    k0_pay6 (F := Ideal) v51 v72 v83 v84 (ix4 (0 : Fin 1) e f t)
      = (∑ c : Fin 64, v84 (ix3 f t c) * v83 (ix3 f c e)) + ∑ c : Fin 64, v51 (ix3 f c t) * v72 (ix3 f c e) := by
  refine (toFront_apply
    (addf
      (matmul dot_S32x128x64_S32x64x64_S32x128x64_2_1_1_2_0_0 none (k0_pay1 v84) (k0_pay4 v83)
        (constant S32x128x64 .f32 0x00000000#32))
      (matmul dot_S32x128x64_S32x64x64_S32x128x64_2_1_1_2_0_0 none (k0_pay2 v51) (k0_pay3 v72)
        (constant S32x128x64 .f32 0x00000000#32))) e f t).trans ?_
  refine (addf_apply _ _ _).trans ?_
  refine congrArg₂ (fun x y : EReal => x + y) (outDot_apply (k0_pay1 v84) (k0_pay4 v83) f t e) ?_
  refine (outDot_apply (k0_pay2 v51) (k0_pay3 v72) f t e).trans ?_
  exact Finset.sum_congr rfl fun c _ => congrArg (fun x : EReal => x * v72 (ix3 f c e)) (pay2_apply v51 f t c)

end Cert.KernelIdeal.Body

end
-- ==== Proof.KBlock.lean ====
/-
  What the kernel's body leaves in its output block, as ONE function of the block index.

  A block is one batch entry and 32 frequencies: index (0, channel, frequency, time). The body reads the block's two
  channel halves (channels 0 … 63 and 64 … 127), forms keys, queries and values by linear maps along the time axis,
  the complex scores, a softmax over the first channel axis for the real and for the imaginary part, and the complex
  product of the values with the two weight arrays. It stores the real part on channels 0 … 63 and the imaginary
  part on channels 64 … 127. Every stage, read at an index, is the corresponding function of the specification
  applied to the block's slice at that frequency; so the two stored pieces are the two halves of one function of
  the block index, the per-slice map `Cert.Attn.attn`, and the block after the body is that function.
-/
import proofs.«102360_j62723702391454_1_alg».proof.Proof.Gen.KernelIdeal.Frame
import proofs.«102360_j62723702391454_1_alg».proof.Proof.Spec
import proofs.«102360_j62723702391454_1_alg».proof.Proof.KProj
import proofs.«102360_j62723702391454_1_alg».proof.Proof.KSoft
import proofs.«102360_j62723702391454_1_alg».proof.Proof.KOut
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx
open scoped BigOperators

/-! ### The two channel halves of a block -/

theorem emb_lo (e : Fin 64) (f : Fin 32) (t : Fin 128) :
    r0_0.emb (ix4 (0 : Fin 1) e f t) = ix4 (0 : Fin 1) (Cert.Attn.re e) f t := by
  funext a; apply Fin.ext
  match a with
  | ⟨0, _⟩ => rfl
  | ⟨1, _⟩ => show 0 + 1 * e.val = e.val; omega
  | ⟨2, _⟩ => show 0 + 1 * f.val = f.val; omega
  | ⟨3, _⟩ => show 0 + 1 * t.val = t.val; omega

theorem emb_hi (e : Fin 64) (f : Fin 32) (t : Fin 128) :
    r0_1.emb (ix4 (0 : Fin 1) e f t) = ix4 (0 : Fin 1) (Cert.Attn.im e) f t := by
  funext a; apply Fin.ext
  match a with
  | ⟨0, _⟩ => rfl
  | ⟨1, _⟩ => show 64 + 1 * e.val = 64 + e.val; omega
  | ⟨2, _⟩ => show 0 + 1 * f.val = f.val; omega
  | ⟨3, _⟩ => show 0 + 1 * t.val = t.val; omega

/-! ### Loads through the body's rectangles -/

theorem hz2 : (![0, 0] : Fin 2 → Nat) = fun _ => 0 := funext fun a => by fin_cases a <;> rfl
theorem hz1 : (![0] : Fin 1 → Nat) = fun _ => 0 := funext fun a => by fin_cases a <;> rfl

theorem ld_lo (x0 : Vec Ideal S1x128x32x128 .f32) (c : Fin 64) (f : Fin 32) (t : Fin 128) :
    View.ld x0 r0_0 (ix4 (0 : Fin 1) c f t) = x0 (ix4 (0 : Fin 1) (Cert.Attn.re c) f t) :=
  congrArg x0 (emb_lo c f t)

theorem ld_hi (x0 : Vec Ideal S1x128x32x128 .f32) (c : Fin 64) (f : Fin 32) (t : Fin 128) :
    View.ld x0 r0_1 (ix4 (0 : Fin 1) c f t) = x0 (ix4 (0 : Fin 1) (Cert.Attn.im c) f t) :=
  congrArg x0 (emb_hi c f t)

theorem ld_w32 (x : Vec Ideal S128x32 .f32) : View.ld x r0_2 = x := View.ld_unit_zero (S := S128x32) hz2 _ x
theorem ld_w128 (x : Vec Ideal S128x128 .f32) : View.ld x r0_3 = x := View.ld_unit_zero (S := S128x128) hz2 _ x
theorem ld_b32 (x : Vec Ideal S32 .f32) : View.ld x r0_4 = x := View.ld_unit_zero (S := S32) hz1 _ x
theorem ld_b128 (x : Vec Ideal S128 .f32) : View.ld x r0_5 = x := View.ld_unit_zero (S := S128) hz1 _ x

/-! ### The block's contents as one function of the block index -/

section Block

variable (x0 : Vec Ideal S1x128x32x128 .f32) (x1 : Vec Ideal S128x32 .f32) (x2 : Vec Ideal S32 .f32)
  (x3 : Vec Ideal S128x32 .f32) (x4 : Vec Ideal S32 .f32) (x5 : Vec Ideal S128x128 .f32) (x6 : Vec Ideal S128 .f32)

/-- The slice of the block at frequency `f`: channel by time. -/
abbrev slice (f : Fin 32) : Fin 128 → Fin 128 → EReal := fun ch t => x0 (ix4 (0 : Fin 1) ch f t)
/-- A weight as the specification indexes it (feature, time), from the transposed array the body is given. -/
abbrev wT {D : ℕ} (w : (⟨2, ![128, D]⟩ : Shape).Idx → EReal) : Fin D → Fin 128 → EReal := fun d t => w (ix2 t d)
abbrev bV {D : ℕ} (b : (⟨1, ![D]⟩ : Shape).Idx → EReal) : Fin D → EReal := fun d => b (ix1 d)

/-- The block after the body at coordinates (channel, frequency, feature). -/
def blockOutC (ch : Fin 128) (f : Fin 32) (t : Fin 128) : EReal :=
  Cert.Attn.attn (slice x0 f) (wT x1) (bV x2) (wT x3) (bV x4) (wT x5) (bV x6) ch t

def blockOut (y : S1x128x32x128.Idx) : EReal := blockOutC x0 x1 x2 x3 x4 x5 x6 (y 1) (y 2) (y 3)

end Block

/-! ### Each stage of the body is the specification's, over the block's slice at frequency `f` -/

section Stages

variable (x0 : Vec Ideal S1x128x32x128 .f32) (x1 : Vec Ideal S128x32 .f32) (x2 : Vec Ideal S32 .f32)
  (x3 : Vec Ideal S128x32 .f32) (x4 : Vec Ideal S32 .f32) (x5 : Vec Ideal S128x128 .f32) (x6 : Vec Ideal S128 .f32)
  (f : Fin 32)

/-- Keys of the real half. -/
theorem kRe_eq (c : Fin 64) (d : Fin 32) :
    k0_pay12 (F := Ideal) (View.ld x0 r0_0) (View.ld x1 r0_2) (View.ld x2 r0_4) (ix3 f c d)
      = Cert.Attn.proj (slice x0 f) (wT x1) (bV x2) (Cert.Attn.re c) d := by
  rw [pay12_apply]; unfold Cert.Attn.proj
  exact congrArg₂ (· + ·) (Finset.sum_congr rfl fun t _ => congrArg₂ (· * ·) (ld_lo x0 c f t) (congrFun (ld_w32 x1) (ix2 t d)))
    (congrFun (ld_b32 x2) (ix1 d))

/-- Keys of the imaginary half. -/
theorem kIm_eq (c : Fin 64) (d : Fin 32) :
    k0_pay13 (F := Ideal) (View.ld x0 r0_1) (View.ld x1 r0_2) (View.ld x2 r0_4) (ix3 f c d)
      = Cert.Attn.proj (slice x0 f) (wT x1) (bV x2) (Cert.Attn.im c) d := by
  rw [pay13_apply]; unfold Cert.Attn.proj
  exact congrArg₂ (· + ·) (Finset.sum_congr rfl fun t _ => congrArg₂ (· * ·) (ld_hi x0 c f t) (congrFun (ld_w32 x1) (ix2 t d)))
    (congrFun (ld_b32 x2) (ix1 d))

/-- Queries of the real half. -/
theorem qRe_eq (c : Fin 64) (d : Fin 32) :
    k0_pay14 (F := Ideal) (View.ld x0 r0_0) (View.ld x3 r0_2) (View.ld x4 r0_4) (ix3 f c d)
      = Cert.Attn.proj (slice x0 f) (wT x3) (bV x4) (Cert.Attn.re c) d := by
  rw [pay14_apply]; unfold Cert.Attn.proj
  exact congrArg₂ (· + ·) (Finset.sum_congr rfl fun t _ => congrArg₂ (· * ·) (ld_lo x0 c f t) (congrFun (ld_w32 x3) (ix2 t d)))
    (congrFun (ld_b32 x4) (ix1 d))

/-- Queries of the imaginary half. -/
theorem qIm_eq (c : Fin 64) (d : Fin 32) :
    k0_pay19 (F := Ideal) (k0_pay8 (View.ld x0 r0_1)) (k0_pay10 (View.ld x3 r0_2)) (View.ld x4 r0_4)
        (constant S2048x32 .f32 0x00000000#32) (ix3 f c d)
      = Cert.Attn.proj (slice x0 f) (wT x3) (bV x4) (Cert.Attn.im c) d := by
  rw [pay19_apply]; unfold Cert.Attn.proj
  exact congrArg₂ (· + ·) (Finset.sum_congr rfl fun t _ => congrArg₂ (· * ·) (ld_hi x0 c f t) (congrFun (ld_w32 x3) (ix2 t d)))
    (congrFun (ld_b32 x4) (ix1 d))

/-- Values of the real half, as the body lays them out (feature before channel). -/
theorem vRe_eq (t : Fin 128) (c : Fin 64) :
    k0_pay22 (F := Ideal) (k0_pay7 (View.ld x0 r0_0)) (k0_pay11 (View.ld x5 r0_3)) (View.ld x6 r0_5) (ix3 f t c)
      = Cert.Attn.proj (slice x0 f) (wT x5) (bV x6) (Cert.Attn.re c) t := by
  rw [pay22_apply]; unfold Cert.Attn.proj
  exact congrArg₂ (· + ·) (Finset.sum_congr rfl fun t0 _ => congrArg₂ (· * ·) (ld_lo x0 c f t0) (congrFun (ld_w128 x5) (ix2 t0 t)))
    (congrFun (ld_b128 x6) (ix1 t))

/-- Values of the imaginary half (channel before feature). -/
theorem vIm_eq (c : Fin 64) (t : Fin 128) :
    k0_pay15 (F := Ideal) (k0_pay8 (View.ld x0 r0_1)) (k0_pay11 (View.ld x5 r0_3)) (View.ld x6 r0_5) (ix3 f c t)
      = Cert.Attn.proj (slice x0 f) (wT x5) (bV x6) (Cert.Attn.im c) t := by
  rw [pay15_apply]; unfold Cert.Attn.proj
  exact congrArg₂ (· + ·) (Finset.sum_congr rfl fun t0 _ => congrArg₂ (· * ·) (ld_hi x0 c f t0) (congrFun (ld_w128 x5) (ix2 t0 t)))
    (congrFun (ld_b128 x6) (ix1 t))

/-- The real softmax weights. -/
theorem wRe_eq (c e : Fin 64) :
    k0_pay20 (F := Ideal) (k0_pay8 (View.ld x0 r0_1)) (k0_pay10 (View.ld x3 r0_2)) (View.ld x4 r0_4)
        (k0_pay12 (View.ld x0 r0_0) (View.ld x1 r0_2) (View.ld x2 r0_4))
        (k0_pay13 (View.ld x0 r0_1) (View.ld x1 r0_2) (View.ld x2 r0_4))
        (k0_pay14 (View.ld x0 r0_0) (View.ld x3 r0_2) (View.ld x4 r0_4))
        (constant S2048x32 .f32 0x00000000#32) (ix3 f c e)
      = Cert.Attn.wRe (slice x0 f) (wT x1) (bV x2) (wT x3) (bV x4) c e := by
  rw [pay20_apply]
  unfold Cert.Attn.wRe Cert.Attn.scoreRe
  simp only [kRe_eq, kIm_eq, qRe_eq, qIm_eq]

/-- The imaginary softmax weights. -/
theorem wIm_eq (c e : Fin 64) :
    k0_pay21 (F := Ideal) (k0_pay8 (View.ld x0 r0_1)) (k0_pay10 (View.ld x3 r0_2)) (View.ld x4 r0_4)
        (k0_pay12 (View.ld x0 r0_0) (View.ld x1 r0_2) (View.ld x2 r0_4))
        (k0_pay13 (View.ld x0 r0_1) (View.ld x1 r0_2) (View.ld x2 r0_4))
        (k0_pay14 (View.ld x0 r0_0) (View.ld x3 r0_2) (View.ld x4 r0_4))
        (constant S2048x32 .f32 0x00000000#32) (ix3 f c e)
      = Cert.Attn.wIm (slice x0 f) (wT x1) (bV x2) (wT x3) (bV x4) c e := by
  rw [pay21_apply]
  unfold Cert.Attn.wIm Cert.Attn.scoreIm
  simp only [kRe_eq, kIm_eq, qRe_eq, qIm_eq]

end Stages

/-! ### The two stored pieces, and the block -/

section Pieces

variable (x0 : Vec Ideal S1x128x32x128 .f32) (x1 : Vec Ideal S128x32 .f32) (x2 : Vec Ideal S32 .f32)
  (x3 : Vec Ideal S128x32 .f32) (x4 : Vec Ideal S32 .f32) (x5 : Vec Ideal S128x128 .f32) (x6 : Vec Ideal S128 .f32)

/-- The piece stored on channels 0 … 63 is the real half of the block's function. -/
theorem piece_lo (x : S1x64x32x128.Idx) :
    k0_pay5 (F := Ideal)
        (k0_pay15 (k0_pay8 (View.ld x0 r0_1)) (k0_pay11 (View.ld x5 r0_3)) (View.ld x6 r0_5))
        (k0_pay20 (k0_pay8 (View.ld x0 r0_1)) (k0_pay10 (View.ld x3 r0_2)) (View.ld x4 r0_4)
          (k0_pay12 (View.ld x0 r0_0) (View.ld x1 r0_2) (View.ld x2 r0_4))
          (k0_pay13 (View.ld x0 r0_1) (View.ld x1 r0_2) (View.ld x2 r0_4))
          (k0_pay14 (View.ld x0 r0_0) (View.ld x3 r0_2) (View.ld x4 r0_4)) (constant S2048x32 .f32 0x00000000#32))
        (k0_pay21 (k0_pay8 (View.ld x0 r0_1)) (k0_pay10 (View.ld x3 r0_2)) (View.ld x4 r0_4)
          (k0_pay12 (View.ld x0 r0_0) (View.ld x1 r0_2) (View.ld x2 r0_4))
          (k0_pay13 (View.ld x0 r0_1) (View.ld x1 r0_2) (View.ld x2 r0_4))
          (k0_pay14 (View.ld x0 r0_0) (View.ld x3 r0_2) (View.ld x4 r0_4)) (constant S2048x32 .f32 0x00000000#32))
        (k0_pay22 (k0_pay7 (View.ld x0 r0_0)) (k0_pay11 (View.ld x5 r0_3)) (View.ld x6 r0_5)) x
      = blockOut x0 x1 x2 x3 x4 x5 x6 (r0_0.emb x) := by
  obtain ⟨u, e, f, t, rfl⟩ : ∃ (u : Fin 1) (e : Fin 64) (f : Fin 32) (t : Fin 128), x = ix4 u e f t :=
    ⟨x 0, x 1, x 2, x 3, eq_ix4 x⟩
  obtain rfl : u = 0 := Subsingleton.elim _ _
  rw [pay5_apply, emb_lo]
  show _ = Cert.Attn.attn (slice x0 f) (wT x1) (bV x2) (wT x3) (bV x4) (wT x5) (bV x6) (Cert.Attn.re e) t
  rw [Cert.Attn.attn_re]; unfold Cert.Attn.outRe
  simp only [vRe_eq, vIm_eq, wRe_eq, wIm_eq]

/-- The piece stored on channels 64 … 127 is the imaginary half of the block's function. -/
theorem piece_hi (x : S1x64x32x128.Idx) :
    k0_pay6 (F := Ideal)
        (k0_pay15 (k0_pay8 (View.ld x0 r0_1)) (k0_pay11 (View.ld x5 r0_3)) (View.ld x6 r0_5))
        (k0_pay20 (k0_pay8 (View.ld x0 r0_1)) (k0_pay10 (View.ld x3 r0_2)) (View.ld x4 r0_4)
          (k0_pay12 (View.ld x0 r0_0) (View.ld x1 r0_2) (View.ld x2 r0_4))
          (k0_pay13 (View.ld x0 r0_1) (View.ld x1 r0_2) (View.ld x2 r0_4))
          (k0_pay14 (View.ld x0 r0_0) (View.ld x3 r0_2) (View.ld x4 r0_4)) (constant S2048x32 .f32 0x00000000#32))
        (k0_pay21 (k0_pay8 (View.ld x0 r0_1)) (k0_pay10 (View.ld x3 r0_2)) (View.ld x4 r0_4)
          (k0_pay12 (View.ld x0 r0_0) (View.ld x1 r0_2) (View.ld x2 r0_4))
          (k0_pay13 (View.ld x0 r0_1) (View.ld x1 r0_2) (View.ld x2 r0_4))
          (k0_pay14 (View.ld x0 r0_0) (View.ld x3 r0_2) (View.ld x4 r0_4)) (constant S2048x32 .f32 0x00000000#32))
        (k0_pay22 (k0_pay7 (View.ld x0 r0_0)) (k0_pay11 (View.ld x5 r0_3)) (View.ld x6 r0_5)) x
      = blockOut x0 x1 x2 x3 x4 x5 x6 (r0_1.emb x) := by
  obtain ⟨u, e, f, t, rfl⟩ : ∃ (u : Fin 1) (e : Fin 64) (f : Fin 32) (t : Fin 128), x = ix4 u e f t :=
    ⟨x 0, x 1, x 2, x 3, eq_ix4 x⟩
  obtain rfl : u = 0 := Subsingleton.elim _ _
  rw [pay6_apply, emb_hi]
  show _ = Cert.Attn.attn (slice x0 f) (wT x1) (bV x2) (wT x3) (bV x4) (wT x5) (bV x6) (Cert.Attn.im e) t
  rw [Cert.Attn.attn_im]; unfold Cert.Attn.outIm
  simp only [vRe_eq, vIm_eq, wRe_eq, wIm_eq]

/-- THE BLOCK AFTER THE BODY is the per-slice map of the block's slices: every index lies in one of the two stored
    pieces, and each piece is that function through its rectangle. -/
theorem out_eq : out0_7 (F := Ideal) x0 x1 x2 x3 x4 x5 x6 = blockOut x0 x1 x2 x3 x4 x5 x6 := by
  funext y
  unfold out0_7
  refine View.canon_apply_of_pieces (Val := Elt Ideal) (blockOut x0 x1 x2 x3 x4 x5 x6) _ ?_ y (cover0_7 _ _ y)
  intro p hp x
  rcases List.mem_cons.mp hp with rfl | hp
  · exact piece_hi x0 x1 x2 x3 x4 x5 x6 x
  · rcases List.mem_cons.mp hp with rfl | hp
    · exact piece_lo x0 x1 x2 x3 x4 x5 x6 x
    · exact absurd hp List.not_mem_nil

end Pieces

end Cert.KernelIdeal.Body

end
-- ==== Proof.KArray.lean ====
/-
  From the blocks to the whole result array.

  The grid has 8 × 8 points: point (b, g) handles batch entry `b` and the 32 frequencies `32 g … 32 g + 31`. The input
  window of the signal and the output window move together: their block at a point is index (b, 0, g, 0) in units of
  the block extents (1, 128, 32, 128), so coordinate (0, ch, fl, t) of a block is coordinate (b, ch, 32 g + fl, t) of the
  array. The six small windows stage whole arrays: the two biases and the value bias as launched, and the three weights
  as @main transposes them before the region, so that entry (t, d) of a staged weight is entry (d, t) of the argument.
  With the block after the body known as one function of the block index, every point writes back the block of ONE
  function of the arguments, the specification's `G`; the 64 blocks cover the array; so the array ends at `G`.
-/
import proofs.«102360_j62723702391454_1_alg».proof.Proof.Gen.KernelIdeal.Value
import proofs.«102360_j62723702391454_1_alg».proof.Proof.KBlock
import Idealize.ShloMosaic.Lib.ValueLayout
import Idealize.ShloMosaic.Lib.StableHlo.Run

noncomputable section

namespace Cert.KernelIdeal.ArrayValue

open Cert.KernelIdeal Cert.KernelIdeal.Gen Cert.KernelIdeal.Body Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-! ## The weights as the region finds them: transposed by @main -/

theorem V_v0 (c : Dev nD) :
    (V m c main_v0 : S128x32.Idx → EReal)
      = transpose S128x32 [1, 0] (m ((c : Thread nD τ).loc main_arg1)) transposes_S32x128_S128x32_1_0 := by
  dsimp only [Gen.V, Gen.hostOps0]; after_results

theorem V_v1 (c : Dev nD) :
    (V m c main_v1 : S128x32.Idx → EReal)
      = transpose S128x32 [1, 0] (m ((c : Thread nD τ).loc main_arg3)) transposes_S32x128_S128x32_1_0 := by
  dsimp only [Gen.V, Gen.hostOps0]; after_results

theorem V_v2 (c : Dev nD) :
    (V m c main_v2 : S128x128.Idx → EReal)
      = transpose S128x128 [1, 0] (m ((c : Thread nD τ).loc main_arg5)) transposes_S128x128_S128x128_1_0 := by
  dsimp only [Gen.V, Gen.hostOps0]; after_results

/-- Entry (t, d) of the staged key weight is entry (d, t) of the argument. -/
theorem V_v0_apply (c : Dev nD) (t : Fin 128) (d : Fin 32) :
    (V m c main_v0 : S128x32.Idx → EReal) (ix2 t d) = m ((c : Thread nD τ).loc main_arg1) (ix2 d t) := by
  rw [V_v0]; exact transpose_ix2_apply _ _ t d

theorem V_v1_apply (c : Dev nD) (t : Fin 128) (d : Fin 32) :
    (V m c main_v1 : S128x32.Idx → EReal) (ix2 t d) = m ((c : Thread nD τ).loc main_arg3) (ix2 d t) := by
  rw [V_v1]; exact transpose_ix2_apply _ _ t d

theorem V_v2_apply (c : Dev nD) (t : Fin 128) (d : Fin 128) :
    (V m c main_v2 : S128x128.Idx → EReal) (ix2 t d) = m ((c : Thread nD τ).loc main_arg5) (ix2 d t) := by
  rw [V_v2]; exact transpose_ix2_apply _ _ t d

/-! ## The index maps, decided over the 64 points -/

theorem idx_facts : ∀ t : Fin cfg0.N,
    win0_0.index t (0 : Fin 4) = win0_7.index t (0 : Fin 4) ∧ win0_0.index t (1 : Fin 4) = 0
    ∧ win0_0.index t (2 : Fin 4) = win0_7.index t (2 : Fin 4) ∧ win0_0.index t (3 : Fin 4) = 0
    ∧ win0_7.index t (1 : Fin 4) = 0 ∧ win0_7.index t (3 : Fin 4) = 0
    ∧ win0_7.index t (0 : Fin 4) < 8 ∧ win0_7.index t (2 : Fin 4) < 8 :=
  (by decide +kernel : ∀ t : Fin grid0.N, _)

/-- The six small windows never move. -/
theorem small_idx : ∀ t : Fin cfg0.N,
    (∀ a : Fin 2, win0_1.index t a = 0) ∧ (∀ a : Fin 1, win0_2.index t a = 0) ∧ (∀ a : Fin 2, win0_3.index t a = 0)
    ∧ (∀ a : Fin 1, win0_4.index t a = 0) ∧ (∀ a : Fin 2, win0_5.index t a = 0) ∧ (∀ a : Fin 1, win0_6.index t a = 0) :=
  (by decide +kernel : ∀ t : Fin grid0.N, _)

/-- Every (batch entry, frequency block) is some point's. -/
theorem idx_onto : ∀ (q0 : Fin 8) (q2 : Fin 8), ∃ t : Fin cfg0.N,
    win0_7.index t (0 : Fin 4) = q0.val ∧ win0_7.index t (2 : Fin 4) = q2.val :=
  (by decide +kernel : ∀ (q0 : Fin 8) (q2 : Fin 8), ∃ t : Fin grid0.N, _)

/-! ## The input blocks -/

theorem iblk1 (c : Dev nD) (t : Fin cfg0.N) : (iblk m c 1 t : S128x32.Idx → EReal) = V m c main_v0 := by
  unfold iblk
  exact Memref.read_access_unit_zero (Elt Ideal) main_v0 (funext fun a => by rw [(small_idx t).1 a, Nat.zero_mul]) _ (V m c main_v0)

theorem iblk2 (c : Dev nD) (t : Fin cfg0.N) : (iblk m c 2 t : S32.Idx → EReal) = V m c main_arg2 := by
  unfold iblk
  exact Memref.read_access_unit_zero (Elt Ideal) main_arg2 (funext fun a => by rw [(small_idx t).2.1 a, Nat.zero_mul]) _ (V m c main_arg2)

theorem iblk3 (c : Dev nD) (t : Fin cfg0.N) : (iblk m c 3 t : S128x32.Idx → EReal) = V m c main_v1 := by
  unfold iblk
  exact Memref.read_access_unit_zero (Elt Ideal) main_v1 (funext fun a => by rw [(small_idx t).2.2.1 a, Nat.zero_mul]) _ (V m c main_v1)

theorem iblk4 (c : Dev nD) (t : Fin cfg0.N) : (iblk m c 4 t : S32.Idx → EReal) = V m c main_arg4 := by
  unfold iblk
  exact Memref.read_access_unit_zero (Elt Ideal) main_arg4 (funext fun a => by rw [(small_idx t).2.2.2.1 a, Nat.zero_mul]) _ (V m c main_arg4)

theorem iblk5 (c : Dev nD) (t : Fin cfg0.N) : (iblk m c 5 t : S128x128.Idx → EReal) = V m c main_v2 := by
  unfold iblk
  exact Memref.read_access_unit_zero (Elt Ideal) main_v2 (funext fun a => by rw [(small_idx t).2.2.2.2.1 a, Nat.zero_mul]) _ (V m c main_v2)

theorem iblk6 (c : Dev nD) (t : Fin cfg0.N) : (iblk m c 6 t : S128.Idx → EReal) = V m c main_arg6 := by
  unfold iblk
  exact Memref.read_access_unit_zero (Elt Ideal) main_arg6 (funext fun a => by rw [(small_idx t).2.2.2.2.2 a, Nat.zero_mul]) _ (V m c main_arg6)

/-- Coordinate (0, ch, fl, t') of the signal's block at a point is coordinate (b, ch, 32 g + fl, t') of the array. -/
theorem iblk0_apply (c : Dev nD) (t : Fin cfg0.N) (ch : Fin 128) (fl : Fin 32) (t' : Fin 128) (b : Fin 8) (fg : Fin 256)
    (hb : b.val = win0_7.index t (0 : Fin 4)) (hf : fg.val = win0_7.index t (2 : Fin 4) * 32 + fl.val) :
    (iblk m c 0 t : S1x128x32x128.Idx → EReal) (ix4 (0 : Fin 1) ch fl t')
      = m ((c : Thread nD τ).loc main_arg0) (ix4 b ch fg t') := by
  obtain ⟨e0, e1, e2, e3, -, -, -, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 4) * 1 + 1 * 0 = b.val; omega
  | ⟨1, _⟩ => show win0_0.index t (1 : Fin 4) * 128 + 1 * ch.val = ch.val; omega
  | ⟨2, _⟩ => show win0_0.index t (2 : Fin 4) * 32 + 1 * fl.val = fg.val; omega
  | ⟨3, _⟩ => show win0_0.index t (3 : Fin 4) * 128 + 1 * t'.val = t'.val; omega

/-! ## What each point writes back -/

/-- The specification's function of the arguments as launched. -/
abbrev Garr (c : Dev nD) : S8x128x256x128.Idx → EReal :=
  Cert.Attn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Coordinate (0, ch, fl, t') of the output block at a point is coordinate (b, ch, 32 g + fl, t') of the array. -/
theorem emb7 (t : Fin cfg0.N) (ch : Fin 128) (fl : Fin 32) (t' : Fin 128) (b : Fin 8) (fg : Fin 256)
    (hb : b.val = win0_7.index t (0 : Fin 4)) (hf : fg.val = win0_7.index t (2 : Fin 4) * 32 + fl.val) :
    ((cfg0.win 7).blk t).view.emb (ix4 (0 : Fin 1) ch fl t') = ix4 b ch fg t' := by
  obtain ⟨-, -, -, -, e5, e6, -, -⟩ := idx_facts t
  funext a; apply Fin.ext
  match a with
  | ⟨0, _⟩ => show win0_7.index t (0 : Fin 4) * 1 + 1 * 0 = b.val; omega
  | ⟨1, _⟩ => show win0_7.index t (1 : Fin 4) * 128 + 1 * ch.val = ch.val; omega
  | ⟨2, _⟩ => show win0_7.index t (2 : Fin 4) * 32 + 1 * fl.val = fg.val; omega
  | ⟨3, _⟩ => show win0_7.index t (3 : Fin 4) * 128 + 1 * t'.val = t'.val; omega

/-- WHAT POINT `t` WRITES BACK is block `t` of the specification's function of the arguments. -/
theorem flushed_eq (c : Dev nD) (t : Fin cfg0.N) :
    (dats m 0 c).flushed 7 t = ((cfg0.win 7).blk t).view.read (Elt Ideal) (Garr m c) := by
  rw [Cert.KernelIdeal.Value.flushed7]
  show out0_7 (F := Ideal) (iblk m c 0 t) (iblk m c 1 t) (iblk m c 2 t) (iblk m c 3 t) (iblk m c 4 t) (iblk m c 5 t) (iblk m c 6 t) = _
  rw [out_eq]
  funext y
  obtain ⟨u, ch, fl, t', rfl⟩ : ∃ (u : Fin 1) (ch : Fin 128) (fl : Fin 32) (t' : Fin 128), y = ix4 u ch fl t' :=
    ⟨y 0, y 1, y 2, y 3, eq_ix4 y⟩
  obtain rfl : u = 0 := Subsingleton.elim _ _
  obtain ⟨-, -, -, -, -, -, h0, h2⟩ := idx_facts t
  have hfl : fl.val < 32 := fl.isLt
  rw [View.read_apply, emb7 t ch fl t' ⟨win0_7.index t (0 : Fin 4), h0⟩ ⟨win0_7.index t (2 : Fin 4) * 32 + fl.val, by omega⟩ rfl rfl]
  show Cert.Attn.attn (slice (iblk m c 0 t) fl) (wT (iblk m c 1 t)) (bV (iblk m c 2 t)) (wT (iblk m c 3 t)) (bV (iblk m c 4 t))
      (wT (iblk m c 5 t)) (bV (iblk m c 6 t)) ch t' = _
  have hx : slice (iblk m c 0 t) fl = fun ch' t'' => m ((c : Thread nD τ).loc main_arg0)
      (ix4 (⟨win0_7.index t (0 : Fin 4), h0⟩ : Fin 8) ch' (⟨win0_7.index t (2 : Fin 4) * 32 + fl.val, by omega⟩ : Fin 256) t'') :=
    funext fun ch' => funext fun t'' => iblk0_apply m c t ch' fl t'' _ _ rfl rfl
  have h1 : wT (iblk m c 1 t) = fun d t'' => m ((c : Thread nD τ).loc main_arg1) (ix2 d t'') :=
    funext fun d => funext fun t'' => by show iblk m c 1 t (ix2 t'' d) = _; rw [iblk1]; exact V_v0_apply m c t'' d
  have h2' : bV (iblk m c 2 t) = fun d => m ((c : Thread nD τ).loc main_arg2) (ix1 d) :=
    funext fun d => by show iblk m c 2 t (ix1 d) = _; rw [iblk2, V_main_arg2]
  have h3 : wT (iblk m c 3 t) = fun d t'' => m ((c : Thread nD τ).loc main_arg3) (ix2 d t'') :=
    funext fun d => funext fun t'' => by show iblk m c 3 t (ix2 t'' d) = _; rw [iblk3]; exact V_v1_apply m c t'' d
  have h4 : bV (iblk m c 4 t) = fun d => m ((c : Thread nD τ).loc main_arg4) (ix1 d) :=
    funext fun d => by show iblk m c 4 t (ix1 d) = _; rw [iblk4, V_main_arg4]
  have h5 : wT (iblk m c 5 t) = fun d t'' => m ((c : Thread nD τ).loc main_arg5) (ix2 d t'') :=
    funext fun d => funext fun t'' => by show iblk m c 5 t (ix2 t'' d) = _; rw [iblk5]; exact V_v2_apply m c t'' d
  have h6 : bV (iblk m c 6 t) = fun d => m ((c : Thread nD τ).loc main_arg6) (ix1 d) :=
    funext fun d => by show iblk m c 6 t (ix1 d) = _; rw [iblk6, V_main_arg6]
  rw [hx, h1, h2', h3, h4, h5, h6]
  try simp only [cast_eq]
  rfl

/-! ## The 64 blocks cover the array -/

/-- An index of the array is in point `t`'s block iff each coordinate is in the block's range on its axis. -/
theorem mem_blk (t : Fin cfg0.N) (i : S8x128x256x128.Idx) :
    i ∈ ((cfg0.win 7).blk t).view.set ↔ ∀ a : Fin 4, win0_7.index t a * S1x128x32x128.size a ≤ (i a).val
      ∧ (i a).val < win0_7.index t a * S1x128x32x128.size a + S1x128x32x128.size a := by
  show i ∈ ((View.whole main_v3).slice (win0_7.rect t)).set ↔ _
  rw [View.set_slice_whole, Rect.mem_set_unit]
  exact Iff.rfl

/-- THE ARRAY after the run is the specification's function of the arguments. -/
theorem final (c : Dev nD) : (dats m 0 c).arrAt 7 cfg0.N = Garr m c :=
  (dats m 0 c).arrAt_eq_of_cover 7 (Garr m c) (fun t _ => flushed_eq m c t) fun i => by
    have hi0 : (i 0).val < 8 := (i 0).isLt
    have hi1 : (i 1).val < 128 := (i 1).isLt
    have hi2 : (i 2).val < 256 := (i 2).isLt
    have hi3 : (i 3).val < 128 := (i 3).isLt
    obtain ⟨t, ht0, ht2⟩ := idx_onto ⟨(i 0).val, hi0⟩ ⟨(i 2).val / 32, by omega⟩
    obtain ⟨-, -, -, -, e5, e6, -, -⟩ := idx_facts t
    refine ⟨t, flush0_7 t, ?_⟩
    rw [mem_blk]
    intro a
    match a with
    | ⟨0, _⟩ => show win0_7.index t (0 : Fin 4) * 1 ≤ (i 0).val ∧ (i 0).val < win0_7.index t (0 : Fin 4) * 1 + 1
                change _ = (i 0).val at ht0; omega
    | ⟨1, _⟩ => show win0_7.index t (1 : Fin 4) * 128 ≤ (i 1).val ∧ (i 1).val < win0_7.index t (1 : Fin 4) * 128 + 128; omega
    | ⟨2, _⟩ => show win0_7.index t (2 : Fin 4) * 32 ≤ (i 2).val ∧ (i 2).val < win0_7.index t (2 : Fin 4) * 32 + 32
                change _ = (i 2).val / 32 at ht2; omega
    | ⟨3, _⟩ => show win0_7.index t (3 : Fin 4) * 128 ≤ (i 3).val ∧ (i 3).val < win0_7.index t (3 : Fin 4) * 128 + 128; omega

/-! ## The run, read -/

/-- The kernel's run with its result array at the specification's function of the arguments, the arguments unchanged. -/
theorem run : θ_run defs (onTc (τ := τ) (main (F := Ideal))) ⟨m, fun _ => 0, ρ⟩ fun r => ∀ c : Dev nD,
      r.2.mem ((c : Thread nD τ).loc main_v3) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.ArrayValue

end
-- ==== Proof.RefValueA.lean ====
/-
  The reference program's six linear maps, read at coordinates.

  Each of the keys, queries and values is computed for the real half (channels 0 … 63) and the imaginary half
  (channels 64 … 127) of the input separately: a contraction of the weight with the half over the time axis, a
  transposition that brings the result to the order (batch, frequency, feature, channel), and the bias added along
  the feature axis. At coordinates (b, f, d, c) the result is the specification's linear map of the slice of the
  input at batch b and frequency f, at channel re c or im c and feature d. The reference multiplies weight by input
  where the specification multiplies input by weight; the products agree by commutativity.
-/
import proofs.«102360_j62723702391454_1_alg».proof.Proof.RefReadP
import proofs.«102360_j62723702391454_1_alg».proof.Proof.Spec
import proofs.«102360_j62723702391454_1_alg».proof.Proof.LibMidAxis

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.StableHlo
open scoped BigOperators

/-- The slice of the input at batch `b` and frequency `f`, by channel and time. -/
abbrev slice (x : FVec Ideal S8x128x256x128 .f32) (b : Fin 8) (f : Fin 256) : Fin 128 → Fin 128 → EReal :=
  fun ch' t' => x (ix4 b ch' f t')

/-- A weight array by row and column. -/
abbrev mat {D : ℕ} (W : FVec Ideal ⟨2, ![D, 128]⟩ .f32) : Fin D → Fin 128 → EReal := fun d t' => W (ix2 d t')

/-- A bias array by entry. -/
abbrev vec {D : ℕ} (v : FVec Ideal ⟨1, ![D]⟩ .f32) : Fin D → EReal := fun d => v (ix1 d)

/-- Keys, real half. -/
theorem v6_eq (x : FVec Ideal S8x128x256x128 .f32) (Wk : FVec Ideal S32x128 .f32) (bk : FVec Ideal S32 .f32)
    (b : Fin 8) (f : Fin 256) (d : Fin 32) (c : Fin 64) :
    val_main_v6 (F := Ideal) x Wk bk (ix4 b f d c)
      = Cert.Attn.proj (slice x b f) (mat Wk) (vec bk) (Cert.Attn.re c) d := by
  rw [val_main_v6_apply, val_main_v3_apply, val_main_v2_apply, val_main_v5_apply, val_main_v4_apply]
  unfold Cert.Attn.proj
  refine congrArg₂ (· + ·) (Finset.sum_congr rfl fun t _ => ?_) ?_
  · rw [val_main_v0_apply, mul_comm]
    refine congrArg₂ (· * ·) (congrArg x ?_) (congrArg Wk ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  · exact congrArg bk (funext fun a => match a with | ⟨0, _⟩ => rfl)

/-- Keys, imaginary half. -/
theorem v11_eq (x : FVec Ideal S8x128x256x128 .f32) (Wk : FVec Ideal S32x128 .f32) (bk : FVec Ideal S32 .f32)
    (b : Fin 8) (f : Fin 256) (d : Fin 32) (c : Fin 64) :
    val_main_v11 (F := Ideal) x Wk bk (ix4 b f d c)
      = Cert.Attn.proj (slice x b f) (mat Wk) (vec bk) (Cert.Attn.im c) d := by
  rw [val_main_v11_apply, val_main_v8_apply, val_main_v7_apply, val_main_v10_apply, val_main_v9_apply]
  unfold Cert.Attn.proj
  refine congrArg₂ (· + ·) (Finset.sum_congr rfl fun t _ => ?_) ?_
  · rw [val_main_v1_apply, mul_comm]
    refine congrArg₂ (· * ·) (congrArg x ?_) (congrArg Wk ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  · exact congrArg bk (funext fun a => match a with | ⟨0, _⟩ => rfl)

/-- Queries, real half. -/
theorem v16_eq (x : FVec Ideal S8x128x256x128 .f32) (Wq : FVec Ideal S32x128 .f32) (bq : FVec Ideal S32 .f32)
    (b : Fin 8) (f : Fin 256) (d : Fin 32) (c : Fin 64) :
    val_main_v16 (F := Ideal) x Wq bq (ix4 b f d c)
      = Cert.Attn.proj (slice x b f) (mat Wq) (vec bq) (Cert.Attn.re c) d := by
  rw [val_main_v16_apply, val_main_v13_apply, val_main_v12_apply, val_main_v15_apply, val_main_v14_apply]
  unfold Cert.Attn.proj
  refine congrArg₂ (· + ·) (Finset.sum_congr rfl fun t _ => ?_) ?_
  · rw [val_main_v0_apply, mul_comm]
    refine congrArg₂ (· * ·) (congrArg x ?_) (congrArg Wq ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  · exact congrArg bq (funext fun a => match a with | ⟨0, _⟩ => rfl)

/-- Queries, imaginary half. -/
theorem v21_eq (x : FVec Ideal S8x128x256x128 .f32) (Wq : FVec Ideal S32x128 .f32) (bq : FVec Ideal S32 .f32)
    (b : Fin 8) (f : Fin 256) (d : Fin 32) (c : Fin 64) :
    val_main_v21 (F := Ideal) x Wq bq (ix4 b f d c)
      = Cert.Attn.proj (slice x b f) (mat Wq) (vec bq) (Cert.Attn.im c) d := by
  rw [val_main_v21_apply, val_main_v18_apply, val_main_v17_apply, val_main_v20_apply, val_main_v19_apply]
  unfold Cert.Attn.proj
  refine congrArg₂ (· + ·) (Finset.sum_congr rfl fun t _ => ?_) ?_
  · rw [val_main_v1_apply, mul_comm]
    refine congrArg₂ (· * ·) (congrArg x ?_) (congrArg Wq ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  · exact congrArg bq (funext fun a => match a with | ⟨0, _⟩ => rfl)

/-- Values, real half. -/
theorem v26_eq (x : FVec Ideal S8x128x256x128 .f32) (Wv : FVec Ideal S128x128 .f32) (bv : FVec Ideal S128 .f32)
    (b : Fin 8) (f : Fin 256) (d : Fin 128) (c : Fin 64) :
    val_main_v26 (F := Ideal) x Wv bv (ix4 b f d c)
      = Cert.Attn.proj (slice x b f) (mat Wv) (vec bv) (Cert.Attn.re c) d := by
  rw [val_main_v26_apply, val_main_v23_apply, val_main_v22_apply, val_main_v25_apply, val_main_v24_apply]
  unfold Cert.Attn.proj
  refine congrArg₂ (· + ·) (Finset.sum_congr rfl fun t _ => ?_) ?_
  · rw [val_main_v0_apply, mul_comm]
    refine congrArg₂ (· * ·) (congrArg x ?_) (congrArg Wv ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  · exact congrArg bv (funext fun a => match a with | ⟨0, _⟩ => rfl)

/-- Values, imaginary half. -/
theorem v31_eq (x : FVec Ideal S8x128x256x128 .f32) (Wv : FVec Ideal S128x128 .f32) (bv : FVec Ideal S128 .f32)
    (b : Fin 8) (f : Fin 256) (d : Fin 128) (c : Fin 64) :
    val_main_v31 (F := Ideal) x Wv bv (ix4 b f d c)
      = Cert.Attn.proj (slice x b f) (mat Wv) (vec bv) (Cert.Attn.im c) d := by
  rw [val_main_v31_apply, val_main_v28_apply, val_main_v27_apply, val_main_v30_apply, val_main_v29_apply]
  unfold Cert.Attn.proj
  refine congrArg₂ (· + ·) (Finset.sum_congr rfl fun t _ => ?_) ?_
  · rw [val_main_v1_apply, mul_comm]
    refine congrArg₂ (· * ·) (congrArg x ?_) (congrArg Wv ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  · exact congrArg bv (funext fun a => match a with | ⟨0, _⟩ => rfl)

end Cert.ReferenceIdeal.RefValue

end
-- ==== Proof.RefValueB.lean ====
/-
  The reference program's scores and softmax weights, read at coordinates.

  The four contractions over the feature axis give, at (b, f, c, e), the sums of key times query over the features
  for the four pairings of halves; their difference and sum are the real and imaginary parts of the complex score of
  channels c and e of the slice at batch b and frequency f. Each part is normalised along c: the maximum over c
  (a fold of max from minus infinity, then once more against minus infinity) is subtracted, the exponential taken,
  and the result divided by its sum over c (which the program starts from the zero word).
-/
import proofs.«102360_j62723702391454_1_alg».proof.Proof.RefValueA

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.StableHlo
open scoped BigOperators

/-- Real part of the score. -/
theorem v34_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (c e : Fin 64) :
    val_main_v34 (F := Ideal) x Wk bk Wq bq (ix4 b f c e) = Cert.Attn.scoreRe (Cert.Attn.proj (slice x b f) (mat Wk) (vec bk)) (Cert.Attn.proj (slice x b f) (mat Wq) (vec bq)) c e := by
  rw [val_main_v34_apply, val_main_v32_apply, val_main_v33_apply]
  unfold Cert.Attn.scoreRe
  refine congrArg₂ (· - ·) (Finset.sum_congr rfl fun d _ => ?_) (Finset.sum_congr rfl fun d _ => ?_)
  ·
    have hl : lidx_main_v32 (ix4 b f c e) d = ix4 b f d c := funext fun a => match a with | ⟨0, _⟩ => rfl | ⟨1, _⟩ => rfl | ⟨2, _⟩ => rfl | ⟨3, _⟩ => rfl
    have hr : ridx_main_v32 (ix4 b f c e) d = ix4 b f d e := funext fun a => match a with | ⟨0, _⟩ => rfl | ⟨1, _⟩ => rfl | ⟨2, _⟩ => rfl | ⟨3, _⟩ => rfl
    rw [hl, hr, v6_eq, v16_eq]
  ·
    have hl : lidx_main_v33 (ix4 b f c e) d = ix4 b f d c := funext fun a => match a with | ⟨0, _⟩ => rfl | ⟨1, _⟩ => rfl | ⟨2, _⟩ => rfl | ⟨3, _⟩ => rfl
    have hr : ridx_main_v33 (ix4 b f c e) d = ix4 b f d e := funext fun a => match a with | ⟨0, _⟩ => rfl | ⟨1, _⟩ => rfl | ⟨2, _⟩ => rfl | ⟨3, _⟩ => rfl
    rw [hl, hr, v11_eq, v21_eq]

/-- Imaginary part of the score. -/
theorem v37_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (c e : Fin 64) :
    val_main_v37 (F := Ideal) x Wk bk Wq bq (ix4 b f c e) = Cert.Attn.scoreIm (Cert.Attn.proj (slice x b f) (mat Wk) (vec bk)) (Cert.Attn.proj (slice x b f) (mat Wq) (vec bq)) c e := by
  rw [val_main_v37_apply, val_main_v35_apply, val_main_v36_apply]
  unfold Cert.Attn.scoreIm
  refine congrArg₂ (· + ·) (Finset.sum_congr rfl fun d _ => ?_) (Finset.sum_congr rfl fun d _ => ?_)
  ·
    have hl : lidx_main_v35 (ix4 b f c e) d = ix4 b f d c := funext fun a => match a with | ⟨0, _⟩ => rfl | ⟨1, _⟩ => rfl | ⟨2, _⟩ => rfl | ⟨3, _⟩ => rfl
    have hr : ridx_main_v35 (ix4 b f c e) d = ix4 b f d e := funext fun a => match a with | ⟨0, _⟩ => rfl | ⟨1, _⟩ => rfl | ⟨2, _⟩ => rfl | ⟨3, _⟩ => rfl
    rw [hl, hr, v6_eq, v21_eq]
  ·
    have hl : lidx_main_v36 (ix4 b f c e) d = ix4 b f d c := funext fun a => match a with | ⟨0, _⟩ => rfl | ⟨1, _⟩ => rfl | ⟨2, _⟩ => rfl | ⟨3, _⟩ => rfl
    have hr : ridx_main_v36 (ix4 b f c e) d = ix4 b f d e := funext fun a => match a with | ⟨0, _⟩ => rfl | ⟨1, _⟩ => rfl | ⟨2, _⟩ => rfl | ⟨3, _⟩ => rfl
    rw [hl, hr, v11_eq, v16_eq]

/-- The shape fact of a reduction over axis 2, in the form that carries the lift of a reduced index. -/
theorem reduces_d2 : S8x256x64x64.Reduces [2] S8x256x64 := by decide

/-- The column maximum of the real part. -/
theorem v40_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (e : Fin 64) :
    val_main_v40 (F := Ideal) x Wk bk Wq bq (ix3 b f e) = Cert.Attn.colMax (fun c' => Cert.Attn.scoreRe (Cert.Attn.proj (slice x b f) (mat Wk) (vec bk)) (Cert.Attn.proj (slice x b f) (mat Wq) (vec bq)) c' e) := by
  rw [val_main_v40_apply, val_main_v39_apply]
  unfold val_main_v38 Cert.Attn.colMax
  refine congrArg₂ max rfl ?_
  refine (Cert.LibMidAxis.hostReduce_maximumf_axis2 _ _ reducesTo_S8x256x64x64_S8x256x64_d2 reduces_d2 h_S_ b f e).trans ?_
  have hs : (fun j : Fin 64 => val_main_v34 (F := Ideal) x Wk bk Wq bq (ix4 b f j e)) = (fun c' => Cert.Attn.scoreRe (Cert.Attn.proj (slice x b f) (mat Wk) (vec bk)) (Cert.Attn.proj (slice x b f) (mat Wq) (vec bq)) c' e) :=
    funext fun j => v34_eq x Wk bk Wq bq b f j e
  rw [hs]; rfl

/-- The shifted exponential of the real part. -/
theorem v44_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (c e : Fin 64) :
    val_main_v44 (F := Ideal) x Wk bk Wq bq (ix4 b f c e)
      = Ideal.exp (Cert.Attn.scoreRe (Cert.Attn.proj (slice x b f) (mat Wk) (vec bk)) (Cert.Attn.proj (slice x b f) (mat Wq) (vec bq)) c e - Cert.Attn.colMax (fun c' => Cert.Attn.scoreRe (Cert.Attn.proj (slice x b f) (mat Wk) (vec bk)) (Cert.Attn.proj (slice x b f) (mat Wq) (vec bq)) c' e)) := by
  rw [val_main_v44_apply, val_main_v43_apply, val_main_v42_apply, val_main_v41_apply]
  have h : idx_main_v41 (idx_main_v42 (ix4 b f c e)) = ix3 b f e := funext fun a => match a with | ⟨0, _⟩ => rfl | ⟨1, _⟩ => rfl | ⟨2, _⟩ => rfl
  rw [h, v40_eq, v34_eq]; rfl

/-- The sum over the column of the shifted exponentials of the real part. -/
theorem v45_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (e : Fin 64) :
    val_main_v45 (F := Ideal) x Wk bk Wq bq (ix3 b f e)
      = ∑ c' : Fin 64, Ideal.exp (Cert.Attn.scoreRe (Cert.Attn.proj (slice x b f) (mat Wk) (vec bk)) (Cert.Attn.proj (slice x b f) (mat Wq) (vec bq)) c' e - Cert.Attn.colMax (fun c' => Cert.Attn.scoreRe (Cert.Attn.proj (slice x b f) (mat Wk) (vec bk)) (Cert.Attn.proj (slice x b f) (mat Wq) (vec bq)) c' e)) := by
  rw [val_main_v45_apply]
  have h0 : val_main_cst_1 (F := Ideal) (Shape.Idx.first h_S_) = 0 :=
    show Ideal.ofBits .f32 0x00000000#32 = 0 from Ideal.ofBits_zero_f32
  rw [h0, zero_add]
  refine Finset.sum_congr rfl fun k _ => ?_
  have h : idx_main_v45 (ix3 b f e) k = ix4 b f k e := funext fun a => match a with | ⟨0, _⟩ => rfl | ⟨1, _⟩ => rfl | ⟨2, _⟩ => rfl | ⟨3, _⟩ => rfl
  rw [h, v44_eq]

/-- The real softmax weights. -/
theorem v48_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (c e : Fin 64) :
    val_main_v48 (F := Ideal) x Wk bk Wq bq (ix4 b f c e)
      = Cert.Attn.wRe (slice x b f) (mat Wk) (vec bk) (mat Wq) (vec bq) c e := by
  rw [val_main_v48_apply, val_main_v47_apply, val_main_v46_apply]
  have h : idx_main_v46 (idx_main_v47 (ix4 b f c e)) = ix3 b f e := funext fun a => match a with | ⟨0, _⟩ => rfl | ⟨1, _⟩ => rfl | ⟨2, _⟩ => rfl
  rw [h, v45_eq, v44_eq]; rfl

/-- The column maximum of the imaginary part. -/
theorem v51_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (e : Fin 64) :
    val_main_v51 (F := Ideal) x Wk bk Wq bq (ix3 b f e) = Cert.Attn.colMax (fun c' => Cert.Attn.scoreIm (Cert.Attn.proj (slice x b f) (mat Wk) (vec bk)) (Cert.Attn.proj (slice x b f) (mat Wq) (vec bq)) c' e) := by
  rw [val_main_v51_apply, val_main_v50_apply]
  unfold val_main_v49 Cert.Attn.colMax
  refine congrArg₂ max rfl ?_
  refine (Cert.LibMidAxis.hostReduce_maximumf_axis2 _ _ reducesTo_S8x256x64x64_S8x256x64_d2 reduces_d2 h_S_ b f e).trans ?_
  have hs : (fun j : Fin 64 => val_main_v37 (F := Ideal) x Wk bk Wq bq (ix4 b f j e)) = (fun c' => Cert.Attn.scoreIm (Cert.Attn.proj (slice x b f) (mat Wk) (vec bk)) (Cert.Attn.proj (slice x b f) (mat Wq) (vec bq)) c' e) :=
    funext fun j => v37_eq x Wk bk Wq bq b f j e
  rw [hs]; rfl

/-- The shifted exponential of the imaginary part. -/
theorem v55_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (c e : Fin 64) :
    val_main_v55 (F := Ideal) x Wk bk Wq bq (ix4 b f c e)
      = Ideal.exp (Cert.Attn.scoreIm (Cert.Attn.proj (slice x b f) (mat Wk) (vec bk)) (Cert.Attn.proj (slice x b f) (mat Wq) (vec bq)) c e - Cert.Attn.colMax (fun c' => Cert.Attn.scoreIm (Cert.Attn.proj (slice x b f) (mat Wk) (vec bk)) (Cert.Attn.proj (slice x b f) (mat Wq) (vec bq)) c' e)) := by
  rw [val_main_v55_apply, val_main_v54_apply, val_main_v53_apply, val_main_v52_apply]
  have h : idx_main_v52 (idx_main_v53 (ix4 b f c e)) = ix3 b f e := funext fun a => match a with | ⟨0, _⟩ => rfl | ⟨1, _⟩ => rfl | ⟨2, _⟩ => rfl
  rw [h, v51_eq, v37_eq]; rfl

/-- The sum over the column of the shifted exponentials of the imaginary part. -/
theorem v56_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (e : Fin 64) :
    val_main_v56 (F := Ideal) x Wk bk Wq bq (ix3 b f e)
      = ∑ c' : Fin 64, Ideal.exp (Cert.Attn.scoreIm (Cert.Attn.proj (slice x b f) (mat Wk) (vec bk)) (Cert.Attn.proj (slice x b f) (mat Wq) (vec bq)) c' e - Cert.Attn.colMax (fun c' => Cert.Attn.scoreIm (Cert.Attn.proj (slice x b f) (mat Wk) (vec bk)) (Cert.Attn.proj (slice x b f) (mat Wq) (vec bq)) c' e)) := by
  rw [val_main_v56_apply]
  have h0 : val_main_cst_4 (F := Ideal) (Shape.Idx.first h_S_) = 0 :=
    show Ideal.ofBits .f32 0x00000000#32 = 0 from Ideal.ofBits_zero_f32
  rw [h0, zero_add]
  refine Finset.sum_congr rfl fun k _ => ?_
  have h : idx_main_v56 (ix3 b f e) k = ix4 b f k e := funext fun a => match a with | ⟨0, _⟩ => rfl | ⟨1, _⟩ => rfl | ⟨2, _⟩ => rfl | ⟨3, _⟩ => rfl
  rw [h, v55_eq]

/-- The imaginary softmax weights. -/
theorem v59_eq (x : FVec Ideal S8x128x256x128 .f32) (Wk : FVec Ideal S32x128 .f32) (bk : FVec Ideal S32 .f32)
    (Wq : FVec Ideal S32x128 .f32) (bq : FVec Ideal S32 .f32)
    (b : Fin 8) (f : Fin 256) (c e : Fin 64) :
    val_main_v59 (F := Ideal) x Wk bk Wq bq (ix4 b f c e)
      = Cert.Attn.wIm (slice x b f) (mat Wk) (vec bk) (mat Wq) (vec bq) c e := by
  rw [val_main_v59_apply, val_main_v58_apply, val_main_v57_apply]
  have h : idx_main_v57 (idx_main_v58 (ix4 b f c e)) = ix3 b f e := funext fun a => match a with | ⟨0, _⟩ => rfl | ⟨1, _⟩ => rfl | ⟨2, _⟩ => rfl
  rw [h, v56_eq, v55_eq]; rfl

end Cert.ReferenceIdeal.RefValue

end
-- ==== Proof.RefValueC.lean ====
/-
  The reference program's output, read at coordinates, and the whole result as the specification's function.

  The four contractions over the channel axis give, at (b, f, t, e), the sums over c of value times weight for the
  four pairings of halves; their difference and sum are the real and imaginary parts of the output at feature t and
  complex channel e. Two transpositions bring them to the order (batch, channel, frequency, feature) and the join
  along the channel axis puts the real part on channels 0 … 63 and the imaginary part on channels 64 … 127, which is
  how the specification's per-slice map is laid out.
-/
import proofs.«102360_j62723702391454_1_alg».proof.Proof.RefValueB

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.StableHlo
open scoped BigOperators

/-- Real part of the output. -/
theorem v62_eq (x : FVec Ideal S8x128x256x128 .f32) (Wk : FVec Ideal S32x128 .f32) (bk : FVec Ideal S32 .f32)
    (Wq : FVec Ideal S32x128 .f32) (bq : FVec Ideal S32 .f32)
    (Wv : FVec Ideal S128x128 .f32) (bv : FVec Ideal S128 .f32)
    (b : Fin 8) (f : Fin 256) (t : Fin 128) (e : Fin 64) :
    val_main_v62 (F := Ideal) x Wk bk Wq bq Wv bv (ix4 b f t e) = Cert.Attn.outRe (Cert.Attn.proj (slice x b f) (mat Wv) (vec bv)) (Cert.Attn.wRe (slice x b f) (mat Wk) (vec bk) (mat Wq) (vec bq)) (Cert.Attn.wIm (slice x b f) (mat Wk) (vec bk) (mat Wq) (vec bq)) t e := by
  rw [val_main_v62_apply, val_main_v60_apply, val_main_v61_apply]
  unfold Cert.Attn.outRe
  refine congrArg₂ (· - ·) (Finset.sum_congr rfl fun c _ => ?_) (Finset.sum_congr rfl fun c _ => ?_)
  ·
    have hl : lidx_main_v60 (ix4 b f t e) c = ix4 b f t c := funext fun a => match a with | ⟨0, _⟩ => rfl | ⟨1, _⟩ => rfl | ⟨2, _⟩ => rfl | ⟨3, _⟩ => rfl
    have hr : ridx_main_v60 (ix4 b f t e) c = ix4 b f c e := funext fun a => match a with | ⟨0, _⟩ => rfl | ⟨1, _⟩ => rfl | ⟨2, _⟩ => rfl | ⟨3, _⟩ => rfl
    rw [hl, hr, v26_eq, v48_eq]
  ·
    have hl : lidx_main_v61 (ix4 b f t e) c = ix4 b f t c := funext fun a => match a with | ⟨0, _⟩ => rfl | ⟨1, _⟩ => rfl | ⟨2, _⟩ => rfl | ⟨3, _⟩ => rfl
    have hr : ridx_main_v61 (ix4 b f t e) c = ix4 b f c e := funext fun a => match a with | ⟨0, _⟩ => rfl | ⟨1, _⟩ => rfl | ⟨2, _⟩ => rfl | ⟨3, _⟩ => rfl
    rw [hl, hr, v31_eq, v59_eq]

/-- Imaginary part of the output. -/
theorem v65_eq (x : FVec Ideal S8x128x256x128 .f32) (Wk : FVec Ideal S32x128 .f32) (bk : FVec Ideal S32 .f32)
    (Wq : FVec Ideal S32x128 .f32) (bq : FVec Ideal S32 .f32)
    (Wv : FVec Ideal S128x128 .f32) (bv : FVec Ideal S128 .f32)
    (b : Fin 8) (f : Fin 256) (t : Fin 128) (e : Fin 64) :
    val_main_v65 (F := Ideal) x Wk bk Wq bq Wv bv (ix4 b f t e) = Cert.Attn.outIm (Cert.Attn.proj (slice x b f) (mat Wv) (vec bv)) (Cert.Attn.wRe (slice x b f) (mat Wk) (vec bk) (mat Wq) (vec bq)) (Cert.Attn.wIm (slice x b f) (mat Wk) (vec bk) (mat Wq) (vec bq)) t e := by
  rw [val_main_v65_apply, val_main_v63_apply, val_main_v64_apply]
  unfold Cert.Attn.outIm
  refine congrArg₂ (· + ·) (Finset.sum_congr rfl fun c _ => ?_) (Finset.sum_congr rfl fun c _ => ?_)
  ·
    have hl : lidx_main_v63 (ix4 b f t e) c = ix4 b f t c := funext fun a => match a with | ⟨0, _⟩ => rfl | ⟨1, _⟩ => rfl | ⟨2, _⟩ => rfl | ⟨3, _⟩ => rfl
    have hr : ridx_main_v63 (ix4 b f t e) c = ix4 b f c e := funext fun a => match a with | ⟨0, _⟩ => rfl | ⟨1, _⟩ => rfl | ⟨2, _⟩ => rfl | ⟨3, _⟩ => rfl
    rw [hl, hr, v26_eq, v59_eq]
  ·
    have hl : lidx_main_v64 (ix4 b f t e) c = ix4 b f t c := funext fun a => match a with | ⟨0, _⟩ => rfl | ⟨1, _⟩ => rfl | ⟨2, _⟩ => rfl | ⟨3, _⟩ => rfl
    have hr : ridx_main_v64 (ix4 b f t e) c = ix4 b f c e := funext fun a => match a with | ⟨0, _⟩ => rfl | ⟨1, _⟩ => rfl | ⟨2, _⟩ => rfl | ⟨3, _⟩ => rfl
    rw [hl, hr, v31_eq, v48_eq]

/-- The reference program's result is the specification's function of the seven argument arrays. -/
theorem ref_eq (x : FVec Ideal S8x128x256x128 .f32) (Wk : FVec Ideal S32x128 .f32) (bk : FVec Ideal S32 .f32)
    (Wq : FVec Ideal S32x128 .f32) (bq : FVec Ideal S32 .f32)
    (Wv : FVec Ideal S128x128 .f32) (bv : FVec Ideal S128 .f32) :
    Cert.ReferenceIdeal.ReadP.val_main_v68 (F := Ideal) x Wk bk Wq bq Wv bv = Cert.Attn.G x Wk bk Wq bq Wv bv := by
  funext i
  obtain ⟨b, ch, f, t, rfl⟩ : ∃ (b : Fin 8) (ch : Fin 128) (f : Fin 256) (t : Fin 128), i = ix4 b ch f t :=
    ⟨i 0, i 1, i 2, i 3, eq_ix4 i⟩
  rw [Cert.Attn.G_ix4]
  unfold Cert.Attn.Gc val_main_v68
  by_cases h : ch.val < 64
  · obtain ⟨e, rfl⟩ : ∃ e : Fin 64, ch = Cert.Attn.re e := ⟨⟨ch.val, h⟩, Fin.ext rfl⟩
    rw [Cert.Attn.attn_re]
    refine (Cert.LibMidAxis.concatenate_axis1_left _ _
      concatenates_S8x64x256x128_S8x64x256x128_S8x128x256x128_d1 b e (Cert.Attn.re e) rfl f t).trans ?_
    rw [val_main_v66_apply]
    have hi : idx_main_v66 (ix4 b e f t) = ix4 b f t e := funext fun a => match a with | ⟨0, _⟩ => rfl | ⟨1, _⟩ => rfl | ⟨2, _⟩ => rfl | ⟨3, _⟩ => rfl
    rw [hi, v62_eq]
  · have hlt : ch.val < 128 := ch.isLt
    obtain ⟨e, rfl⟩ : ∃ e : Fin 64, ch = Cert.Attn.im e :=
      ⟨⟨ch.val - 64, by omega⟩, Fin.ext (by show ch.val = 64 + (ch.val - 64); omega)⟩
    rw [Cert.Attn.attn_im]
    refine (Cert.LibMidAxis.concatenate_axis1_right _ _
      concatenates_S8x64x256x128_S8x64x256x128_S8x128x256x128_d1 b e (Cert.Attn.im e) rfl f t).trans ?_
    rw [val_main_v67_apply]
    have hi : idx_main_v67 (ix4 b e f t) = ix4 b f t e := funext fun a => match a with | ⟨0, _⟩ => rfl | ⟨1, _⟩ => rfl | ⟨2, _⟩ => rfl | ⟨3, _⟩ => rfl
    rw [hi, v65_eq]

end Cert.ReferenceIdeal.RefValue

end
-- ==== Proof.RefValue.lean ====
/-
  The reference program's result as the specification's function: the statement is `RefValue.ref_eq`, proved in three
  stages (the linear maps, the scores and softmax weights, the outputs and the join of the two halves).
-/
import proofs.«102360_j62723702391454_1_alg».proof.Proof.RefValueC
-- ==== Proof.lean ====
/-
  The certificate's claims for a complex-valued channel attention over f32[8, 128, 256, 128].

  For each batch entry and frequency the 128 channels are 64 complex channels (real half, imaginary half). Keys,
  queries and values are linear maps along the time axis with a bias; the complex score of two channels is the
  unconjugated product summed over the key features; its real and imaginary parts are each normalised by a softmax over
  the first channel; the output is the complex product of the values with the two weight arrays. The kernel computes
  this block by block (one batch entry and 32 frequencies at a grid point), narrowing operands to bf16 before its
  matrix products, with the weights transposed by @main beforehand; the reference computes it on whole arrays with
  einsums. At the extended reals a narrowing is the identity and every matrix product is a finite sum of products, so
  both programs' result arrays are ONE function `Cert.Attn.G` of the seven arguments, index by index: the same sums in
  the same grouping, the same maxima from minus infinity, the same exponentials and quotients; the only law used
  between the two texts is commutativity of the product in the linear maps. No finiteness of the inputs is needed.

  The kernel's side: the block after the body as one function of the block index, then the 64 blocks covering the array
  (`Cert.KernelIdeal.ArrayValue.run`). The reference's side: its run read one operation at a time down to the same
  function (`Cert.ReferenceIdeal.RefValue.ref_eq`). The ideal pass rewrote nothing, so `preserves` is trivial.
-/
import proofs.«102360_j62723702391454_1_alg».proof.Defs
import proofs.«102360_j62723702391454_1_alg».proof.Proof.Gen.Kernel
import proofs.«102360_j62723702391454_1_alg».proof.Proof.Gen.Kernel.Skeleton
import proofs.«102360_j62723702391454_1_alg».proof.Proof.Gen.Kernel.Launch
import proofs.«102360_j62723702391454_1_alg».proof.Proof.Gen.Kernel.Points
import proofs.«102360_j62723702391454_1_alg».proof.Proof.Gen.Kernel.Frame
import proofs.«102360_j62723702391454_1_alg».proof.Proof.Gen.KernelIdeal
import proofs.«102360_j62723702391454_1_alg».proof.Proof.Gen.KernelIdeal.Skeleton
import proofs.«102360_j62723702391454_1_alg».proof.Proof.Gen.KernelIdeal.Launch
import proofs.«102360_j62723702391454_1_alg».proof.Proof.Gen.KernelIdeal.Points
import proofs.«102360_j62723702391454_1_alg».proof.Proof.Gen.KernelIdeal.Frame
import proofs.«102360_j62723702391454_1_alg».proof.Proof.Gen.ReferenceIdeal
import proofs.«102360_j62723702391454_1_alg».proof.Proof.Gen.Pre_finite_inputs
import proofs.«102360_j62723702391454_1_alg».proof.Proof.Gen.KernelIdeal.Value
import proofs.«102360_j62723702391454_1_alg».proof.Proof.KArray
import proofs.«102360_j62723702391454_1_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- Both runs end with the result array at `Cert.Attn.G` of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.ArrayValue.Garr m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v68_eq, Cert.ReferenceIdeal.RefValue.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
